-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x512 : Shape := ⟨3, ![2, 4096, 512]⟩
abbrev S512x512 : Shape := ⟨2, ![512, 512]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x512 : S_.BroadcastsInDim S2x4096x512 (![] : Fin 0 → Fin S2x4096x512.rank)
  reducesTo_S2x4096x512_S_d0_1_2 : S2x4096x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S2x4096x4096 .f32) (main_arg1 : FVec F S2x4096x512 .f32) (main_arg2 : FVec F S512x512 .f32) (main_arg3 : FVec F S512x512 .f32) (main_arg4 : FVec F S512x512 .f32) (main_arg5 : FVec F S512x512 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S2x4096x4096 : Shape := ⟨3, ![2, 4096, 4096]⟩
abbrev S2x4096x512 : Shape := ⟨3, ![2, 4096, 512]⟩
abbrev S512x512 : Shape := ⟨2, ![512, 512]⟩
abbrev S1x512x512 : Shape := ⟨3, ![1, 512, 512]⟩
abbrev S2x512x512 : Shape := ⟨3, ![2, 512, 512]⟩
abbrev S1x512x4096 : Shape := ⟨3, ![1, 512, 4096]⟩
abbrev S1x4096x512 : Shape := ⟨3, ![1, 4096, 512]⟩
abbrev S512x4096 : Shape := ⟨2, ![512, 4096]⟩
abbrev S4096x512 : Shape := ⟨2, ![4096, 512]⟩
abbrev S1x1024x4096 : Shape := ⟨3, ![1, 1024, 4096]⟩
abbrev S1024x512 : Shape := ⟨2, ![1024, 512]⟩
abbrev S1024x4096 : Shape := ⟨2, ![1024, 4096]⟩
abbrev S1x1024x512 : Shape := ⟨3, ![1, 1024, 512]⟩

abbrev nBuf : Space → Nat
  | .hbm => 15
  | .vmem => 16
  | .smem => 0
  | _ => 0

abbrev bufTy : (tb : Table) → Fin (tcTables nBuf tb) → BufTy
  | .hbm, ⟨0, _⟩ => ⟨S2x4096x4096, .f32⟩
  | .hbm, ⟨1, _⟩ => ⟨S2x4096x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S1x512x512, .f32⟩
  | .hbm, ⟨7, _⟩ => ⟨S1x512x512, .f32⟩
  | .hbm, ⟨8, _⟩ => ⟨S2x512x512, .f32⟩
  | .hbm, ⟨9, _⟩ => ⟨S1x512x512, .f32⟩
  | .hbm, ⟨10, _⟩ => ⟨S1x512x512, .f32⟩
  | .hbm, ⟨11, _⟩ => ⟨S2x512x512, .f32⟩
  | .hbm, ⟨12, _⟩ => ⟨S2x4096x512, .bf16⟩
  | .hbm, ⟨13, _⟩ => ⟨S2x4096x4096, .bf16⟩
  | .hbm, ⟨14, _⟩ => ⟨S4096x512, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x512, .f32⟩
  | .local _ .vmem, ⟨3, _⟩ => ⟨S1x4096x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x1024x4096, .bf16⟩
  | .local _ .vmem, ⟨11, _⟩ => ⟨S1x1024x4096, .bf16⟩
  | .local _ .vmem, ⟨12, _⟩ => ⟨S2x4096x512, .bf16⟩
  | .local _ .vmem, ⟨13, _⟩ => ⟨S2x512x512, .f32⟩
  | .local _ .vmem, ⟨14, _⟩ => ⟨S1024x512, .f32⟩
  | .local _ .vmem, ⟨15, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 8], ![false, false]⟩

def k0_off1 (i : grid0.Coords) : Fin 3 → Nat :=
  let c0_8 : Index := 0#32
  let arg1 : BitVec 32 := BitVec.ofNat 32 (i 1).val
  let c512_i32 : BitVec 32 := 512#32
  let v10 : BitVec 32 := Scalar.muli arg1 c512_i32
  let v11 : Index := Scalar.indexCast v10
  let c0_9 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 2], ![false, false]⟩

def k1_off1 (i : grid1.Coords) : Fin 3 → Nat :=
  let arg1 : BitVec 32 := BitVec.ofNat 32 (i 1).val
  let v2 : Index := Scalar.indexCast arg1
  let c0_2 : Index := 0#32
  let c0_3 : Index := 0#32
  ![v2.toNat, 0, 0]
def k1_off2 (i : grid1.Coords) : Fin 3 → Nat :=
  let arg1 : BitVec 32 := BitVec.ofNat 32 (i 1).val
  let v7 : Index := Scalar.indexCast arg1
  let arg0 : BitVec 32 := BitVec.ofNat 32 (i 0).val
  let c1024_i32 : BitVec 32 := 1024#32
  let v6 : BitVec 32 := Scalar.muli arg0 c1024_i32
  let v8 : Index := Scalar.indexCast v6
  let c0_4 : Index := 0#32
  ![v7.toNat, v8.toNat, 0]
def k1_off3 (i : grid1.Coords) : Fin 3 → Nat :=
  let arg1 : BitVec 32 := BitVec.ofNat 32 (i 1).val
  let v18 : Index := Scalar.indexCast arg1
  let c0_7 : Index := 0#32
  let c0_8 : Index := 0#32
  ![v18.toNat, 0, 0]
def k1_cond1 (i : grid1.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_11 : BitVec 32 := 0#32
  let v27 : BitVec 1 := Scalar.cmpi .ne v26 c0_i32_11
  v27

def k1_cond2 (i : grid1.Coords) : BitVec 1 :=
  let arg1 : BitVec 32 := BitVec.ofNat 32 (i 1).val
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .ne v29 c0_i32_13
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S512x512_S1x512x512_1_2 : S512x512.BroadcastsInDim S1x512x512 (![1, 2] : Fin 2 → Fin S1x512x512.rank)
  concatenates_S1x512x512_S1x512x512_S2x512x512_d0 : Shape.Concatenates [S1x512x512, S1x512x512] S2x512x512 0
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  shapeCasts_S512x4096_S1x512x4096 : S512x4096.ShapeCasts S1x512x4096
  packedbf16_S1x512x4096_S1x512x4096_0_0_0 : (Rect.unit (s := S1x512x4096) ![0, 0, 0] S1x512x4096.size inb_S1x512x4096_S1x512x4096_0_0_0).PackedRows (EltTy.packing .bf16)
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  h_S1x512x512 : 0 < S1x512x512.numel
  shapeCasts_S1x512x512_S512x512 : S1x512x512.ShapeCasts S512x512
  inb_S1x512x512_S1x512x512_0_0_0 : ∀ a, (![0, 0, 0] : Fin 3 → Nat) a + S1x512x512.size a ≤ S1x512x512.size a
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  h_S1x1024x512 : 0 < S1x1024x512.numel
  shapeCasts_S1x1024x512_S1024x512 : S1x1024x512.ShapeCasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S512x4096_S4096x512_S512x512_1_0_0_1_n_n_wf : DotDims.WF S512x4096 S4096x512 S512x512 [1] [0] [0] [1] [] []
  dot_S512x512_S512x512_S512x512_1_0_0_1_n_n_wf : DotDims.WF S512x512 S512x512 S512x512 [1] [0] [0] [1] [] []
  dot_S1024x4096_S4096x512_S1024x512_1_0_0_1_n_n_wf : DotDims.WF S1024x4096 S4096x512 S1024x512 [1] [0] [0] [1] [] []
  dot_S1024x512_S512x512_S1024x512_1_0_0_1_n_n_wf : DotDims.WF S1024x512 S512x512 S1024x512 [1] [0] [0] [1] [] []
  hrank0 : 0 < grid0.rank
  k0_off1_inb : ∀ i : grid0.Coords, ∀ a, (k0_off1 i) a + S1x512x512.size a ≤ S1x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S2x4096x4096.size a
  hwx0_0 : ∀ i : grid0.Coords, EltTy.bits .f32 = 32 ∨ (Rect.block (s := S2x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S2x4096x512.size a
  hwx0_1 : ∀ i : grid0.Coords, EltTy.bits .f32 = 32 ∨ (Rect.block (s := S2x4096x512) S1x4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S2x512x512.size a
  hwx0_2 : ∀ i : grid0.Coords, EltTy.bits .f32 = 32 ∨ (Rect.block (s := S2x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S2x4096x512.size a
  hwx0_3 : ∀ i : grid0.Coords, EltTy.bits .bf16 = 32 ∨ (Rect.block (s := S2x4096x512) S1x512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S2x4096x4096.size a
  hwx0_4 : ∀ i : grid0.Coords, EltTy.bits .bf16 = 32 ∨ (Rect.block (s := S2x4096x4096) S1x512x4096.size (cc0_transform_4 i) (hinb0_4 i)).WholeWords (EltTy.packing .bf16)
  hrank1 : 0 < grid1.rank
  k1_off1_inb : ∀ i : grid1.Coords, ∀ a, (k1_off1 i) a + S1x4096x512.size a ≤ S2x4096x512.size a
  k1_off2_inb : ∀ i : grid1.Coords, ∀ a, (k1_off2 i) a + S1x1024x512.size a ≤ S2x4096x512.size a
  k1_off3_inb : ∀ i : grid1.Coords, ∀ a, (k1_off3 i) a + S1x512x512.size a ≤ S2x512x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x4096.size a ≤ S2x4096x4096.size a
  hwx1_0 : ∀ i : grid1.Coords, EltTy.bits .bf16 = 32 ∨ (Rect.block (s := S2x4096x4096) S1x1024x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x4096x512.size a ≤ S2x4096x512.size a
  hwx1_1 : ∀ i : grid1.Coords, EltTy.bits .bf16 = 32 ∨ (Rect.block (s := S2x4096x512) S2x4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x512x512.size a ≤ S2x512x512.size a
  hwx1_2 : ∀ i : grid1.Coords, EltTy.bits .f32 = 32 ∨ (Rect.block (s := S2x512x512) S2x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x512.size a
  hwx1_3 : ∀ i : grid1.Coords, EltTy.bits .f32 = 32 ∨ (Rect.block (s := S4096x512) S1024x512.size (cc1_transform_3 i) (hinb1_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_1) S1x1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S2x4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2x512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S2x4096x512 : Shape := ⟨3, ![2, 4096, 512]⟩
abbrev S512x512 : Shape := ⟨2, ![512, 512]⟩
abbrev S1x4096x512 : Shape := ⟨3, ![1, 4096, 512]⟩
abbrev S4096x512 : Shape := ⟨2, ![4096, 512]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S1x4096x512, .f32⟩
  | .hbm, ⟨7, _⟩ => ⟨S4096x512, .f32⟩
  | .hbm, ⟨8, _⟩ => ⟨S1x4096x512, .f32⟩
  | .hbm, ⟨9, _⟩ => ⟨S4096x512, .f32⟩
  | .hbm, ⟨10, _⟩ => ⟨S1x4096x4096, .f32⟩
  | .hbm, ⟨11, _⟩ => ⟨S4096x4096, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S1x4096x4096, .f32⟩
  | .hbm, ⟨22, _⟩ => ⟨S4096x4096, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S1x4096x4096, .f32⟩
  | .hbm, ⟨39, _⟩ => ⟨S4096x4096, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S1x4096x4096, .f32⟩
  | .hbm, ⟨50, _⟩ => ⟨S4096x4096, .f32⟩
  | .hbm, ⟨51, _⟩ => ⟨S4096x512, .f32⟩
  | .hbm, ⟨52, _⟩ => ⟨S_, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  slices_S2x4096x512_S1x4096x512_0_0_0 : S2x4096x512.Slices ![0, 0, 0] S1x4096x512
  shapeCasts_S1x4096x512_S4096x512 : S1x4096x512.ShapeCasts S4096x512
  slices_S2x4096x512_S1x4096x512_1_0_0 : S2x4096x512.Slices ![1, 0, 0] S1x4096x512
  slices_S2x4096x4096_S1x4096x4096_0_0_0 : S2x4096x4096.Slices ![0, 0, 0] S1x4096x4096
  shapeCasts_S1x4096x4096_S4096x4096 : S1x4096x4096.ShapeCasts S4096x4096
  bcast_S_S4096x512 : S_.BroadcastsInDim S4096x512 (![] : Fin 0 → Fin S4096x512.rank)
  slices_S2x4096x4096_S1x4096x4096_1_0_0 : S2x4096x4096.Slices ![1, 0, 0] S1x4096x4096
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.K.Reg0.lean ====
/-
  Region 0 of the program (the first layer, one launch over the grid (graph j, row panel r) of 2 x 8 points), at
  the buffer contents `V` the region is entered from.

  At a point the body reads the panel of 512 rows of the adjacency array (window 0), the whole feature array of the
  graph (window 1) and the graph's weight matrix (window 2), and writes two blocks: the panel narrowed to the short
  float format (window 4) and the panel of the layer's result (window 3).  Each output buffer is written by ONE store
  through the rectangle of the whole buffer, so what the body leaves in it is that store's payload, a function of the
  three input blocks (and, for window 3, of the grid point, which selects the rows of the feature array added back).
  The input buffers are left as found.  Nothing is carried from one point to the next.
-/
import proofs.«112696_g76459007803594_cont_9to1_m_617_25_alg».proof.Proof.Gen.Kernel.Launch
import proofs.«112696_g76459007803594_cont_9to1_m_617_25_alg».proof.Proof.Gen.Kernel.Skeleton
import proofs.«112696_g76459007803594_cont_9to1_m_617_25_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (where it is not fetched the block index has not moved), for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole adjacency panel (window 0's buffer, and window 4's). -/
abbrev rA0 : Rect S1x512x4096 := Rect.unit (s := S1x512x4096) ![0, 0, 0] S1x512x4096.size inb_S1x512x4096_S1x512x4096_0_0_0
/-- The whole feature array of the graph (window 1's buffer). -/
abbrev rX0 : Rect S1x4096x512 := Rect.unit (s := S1x4096x512) ![0, 0, 0] S1x4096x512.size inb_S1x4096x512_S1x4096x512_0_0_0
/-- The rows of the feature array that belong to the point's row panel. -/
abbrev rXr0 (i : grid0.Coords) : Rect S1x4096x512 := Rect.unit (s := S1x4096x512) (k0_off1 i) S1x512x512.size (k0_off1_inb i)
/-- The whole weight matrix (window 2's buffer, and window 3's). -/
abbrev rW0 : Rect S1x512x512 := Rect.unit (s := S1x512x512) ![0, 0, 0] S1x512x512.size inb_S1x512x512_S1x512x512_0_0_0

/-! ## What the body leaves in each output window's buffer -/

/-- Window 3's buffer after the body, from the input blocks: its one store as a piece. -/
def out0_3 (i : grid0.Coords) (x0 : Vec F S1x512x4096 .f32) (x1 : Vec F S1x4096x512 .f32) (x2 : Vec F S1x512x512 .f32) : Vec F S1x512x512 .bf16 :=
  View.canon [⟨rW0, k0_pay3 (View.ld x0 rA0) (View.ld x1 rX0) (View.ld x1 (rXr0 i)) (View.ld x2 rW0)⟩]

/-- Window 4's buffer after the body, from the adjacency panel: its one store as a piece. -/
def out0_4 (x0 : Vec F S1x512x4096 .f32) : Vec F S1x512x4096 .bf16 :=
  View.canon [⟨rA0, k0_pay2 (View.ld x0 rA0)⟩]

/-- The one store covers the buffer. -/
theorem cover0_3 (p0 : Vec F S1x512x512 .bf16) (y : S1x512x512.Idx) :
    ∃ pc ∈ ([⟨rW0, p0⟩] : List (View.Piece (Elt F) S1x512x512 .bf16)), y ∈ pc.1.set :=
  ⟨_, List.mem_singleton_self _, View.mem_set_unit_zero (by funext a; fin_cases a <;> rfl) inb_S1x512x512_S1x512x512_0_0_0 y⟩
theorem cover0_4 (p0 : Vec F S1x512x4096 .bf16) (y : S1x512x4096.Idx) :
    ∃ pc ∈ ([⟨rA0, p0⟩] : List (View.Piece (Elt F) S1x512x4096 .bf16)), y ∈ pc.1.set :=
  ⟨_, List.mem_singleton_self _, View.mem_set_unit_zero (by funext a; fin_cases a <;> rfl) inb_S1x512x4096_S1x512x4096_0_0_0 y⟩

/-! ## The body's triple -/

set_option maxHeartbeats 1000000 in
/-- The body on whole staging memrefs, the inputs' at contents `x0`, `x1`, `x2` and the outputs' at anything, runs to
    the continuation holding the inputs' as they were and each output's at its store's payload. -/
theorem sound_kernel0 (c : Dev nD) (E : Set ℕ) (i : grid0.Coords)
    (arg2 : Memref sig .tc .vmem S1x512x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x512x512 .bf16) (harg5 : arg5.IsWhole)
    (arg6 : Memref sig .tc .vmem S1x512x4096 .bf16) (harg6 : arg6.IsWhole)
    (x0 : Vec F S1x512x4096 .f32) (x1 : Vec F S1x4096x512 .f32) (x2 : Vec F S1x512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2) ∗ owns (c : Thread nD τ) arg6 fullShare (out0_4 x0)) -∗ K ⟨⟩))
      ⊢ wp frame (wpE (defs₀ (F := F)) Variants.none c none) E (cc0__layer0_body i arg2 harg2 arg3 harg3 arg4 harg4 arg5 harg5 arg6 harg6) K := by
  simp only [cc0__layer0_body_eq_skeleton]; unfold cc0__layer0_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them; after the body at point `t` each
    input's buffer at its block and each output's at its store's payload of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Reg1.lean ====
/-
  Region 1 of the program (the second layer, one launch over the grid (row panel r, graph j) of 4 x 2 points), at
  the buffer contents `V` the region is entered from.

  At a point the body reads the panel of 1024 rows of graph j's narrowed adjacency array (window 0), and from the
  whole first-layer result and the whole stack of weight matrices, both resident (windows 1 and 2), the parts of
  graph j.  Its contribution is the layer's result for those rows, halved.  The output block (window 3) is the same
  for the two points of a row panel: at j = 0 the body stores the contribution, at j = 1 it loads the block, adds
  the contribution and stores the sum; the block is written back after the second.  So what the output buffer holds
  after a point is defined by recursion on the point: the contribution at an even point, the contents the point
  before left plus the contribution at an odd one.  The input buffers are left as found.
-/
import proofs.«112696_g76459007803594_cont_9to1_m_617_25_alg».proof.Proof.Gen.Kernel.Launch
import proofs.«112696_g76459007803594_cont_9to1_m_617_25_alg».proof.Proof.Gen.Kernel.Skeleton
import proofs.«112696_g76459007803594_cont_9to1_m_617_25_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole adjacency panel (window 0's buffer). -/
abbrev rA1 : Rect S1x1024x4096 := Rect.unit (s := S1x1024x4096) ![0, 0, 0] S1x1024x4096.size inb_S1x1024x4096_S1x1024x4096_0_0_0
/-- Graph j's slab of the first-layer result. -/
abbrev rH1 (i : grid1.Coords) : Rect S2x4096x512 := Rect.unit (s := S2x4096x512) (k1_off1 i) S1x4096x512.size (k1_off1_inb i)
/-- The rows of that slab that belong to the point's row panel. -/
abbrev rHr1 (i : grid1.Coords) : Rect S2x4096x512 := Rect.unit (s := S2x4096x512) (k1_off2 i) S1x1024x512.size (k1_off2_inb i)
/-- Graph j's weight matrix in the stack. -/
abbrev rW1 (i : grid1.Coords) : Rect S2x512x512 := Rect.unit (s := S2x512x512) (k1_off3 i) S1x512x512.size (k1_off3_inb i)
/-- The whole output block (window 3's buffer). -/
abbrev rO1 : Rect S1024x512 := Rect.unit (s := S1024x512) ![0, 0] S1024x512.size inb_S1024x512_S1024x512_0_0

/-! ## The branch conditions over the grid -/

/-- The first branch (store the contribution) is taken at the even points: graph 0. -/
theorem hcond1_1 : ∀ t : Fin cfg1.N, k1_cond1 (grid1.coords t) = 1#1 ↔ t.val % 2 = 0 :=
  (by decide +kernel : ∀ t : Fin grid1.N, k1_cond1 (grid1.coords t) = 1#1 ↔ t.val % 2 = 0)
/-- The second branch (add the contribution) is taken at the odd points: graph 1. -/
theorem hcond1_2 : ∀ t : Fin cfg1.N, k1_cond2 (grid1.coords t) = 1#1 ↔ t.val % 2 = 1 :=
  (by decide +kernel : ∀ t : Fin grid1.N, k1_cond2 (grid1.coords t) = 1#1 ↔ t.val % 2 = 1)

/-- Every point takes one of the two branches, so the output window is idle nowhere. -/
theorem live1_3 : ∀ i : grid1.Coords, cfg1.idle 3 i = false := by
  decide +kernel

/-! ## What the body leaves in the output window's buffer -/

/-- The point's contribution: the halved second-layer result for the panel's rows, from the input blocks. -/
def contrib1 (i : grid1.Coords) (x0 : Vec F S1x1024x4096 .bf16) (x1 : Vec F S2x4096x512 .bf16) (x2 : Vec F S2x512x512 .f32) : Vec F S1024x512 .f32 :=
  k1_pay1 (View.ld x0 rA1) (View.ld x1 (rH1 i)) (View.ld x1 (rHr1 i)) (View.ld x2 (rW1 i))

/-- Window 3's buffer after the body where the first branch is taken: the contribution, stored whole. -/
def out1_A_3 (i : grid1.Coords) (x0 : Vec F S1x1024x4096 .bf16) (x1 : Vec F S2x4096x512 .bf16) (x2 : Vec F S2x512x512 .f32) : Vec F S1024x512 .f32 :=
  View.canon [⟨rO1, contrib1 i x0 x1 x2⟩]

/-- Window 3's buffer after the body where the second branch is taken, from what it held (`xo`): the sum, stored whole. -/
def out1_B_3 (i : grid1.Coords) (x0 : Vec F S1x1024x4096 .bf16) (x1 : Vec F S2x4096x512 .bf16) (x2 : Vec F S2x512x512 .f32)
    (xo : Vec F S1024x512 .f32) : Vec F S1024x512 .f32 :=
  View.canon [⟨rO1, k1_pay2 (View.ld x0 rA1) (View.ld x1 (rH1 i)) (View.ld x1 (rHr1 i)) (View.ld x2 (rW1 i)) (View.ld xo rO1)⟩]

/-- The one store covers the buffer. -/
theorem cover1_3 (p0 : Vec F S1024x512 .f32) (y : S1024x512.Idx) :
    ∃ pc ∈ ([⟨rO1, p0⟩] : List (View.Piece (Elt F) S1024x512 .f32)), y ∈ pc.1.set :=
  ⟨_, List.mem_singleton_self _, View.mem_set_unit_zero (by funext a; fin_cases a <;> rfl) inb_S1024x512_S1024x512_0_0 y⟩

/-! ## The body's triple, branch by branch -/

set_option maxHeartbeats 1000000 in
/-- Where the first branch is taken: the inputs' memrefs at `x0`, `x1`, `x2`, the output's at anything; the body runs to
    the continuation holding the inputs' as they were and the output's at the contribution. -/
theorem sound_kernel1_A (c : Dev nD) (E : Set ℕ) (i : grid1.Coords) (hc1 : k1_cond1 i = 1#1) (hc2 : ¬ k1_cond2 i = 1#1)
    (arg2 : Memref sig .tc .vmem S1x1024x4096 .bf16) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (x0 : Vec F S1x1024x4096 .bf16) (x1 : Vec F S2x4096x512 .bf16) (x2 : Vec F S2x512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_A_3 i x0 x1 x2)) -∗ K ⟨⟩))
      ⊢ wp frame (wpE (defs₀ (F := F)) Variants.none c none) E (cc1__layer1_body i arg2 harg2 arg3 harg3 arg4 harg4 arg5 harg5) K := by
  simp only [cc1__layer1_body_eq_skeleton]; unfold cc1__layer1_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

set_option maxHeartbeats 1000000 in
/-- Where the second branch is taken: the output's memref at `xo`; the body runs to the continuation holding the
    output's at `xo` plus the contribution. -/
theorem sound_kernel1_B (c : Dev nD) (E : Set ℕ) (i : grid1.Coords) (hc1 : ¬ k1_cond1 i = 1#1) (hc2 : k1_cond2 i = 1#1)
    (arg2 : Memref sig .tc .vmem S1x1024x4096 .bf16) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (x0 : Vec F S1x1024x4096 .bf16) (x1 : Vec F S2x4096x512 .bf16) (x2 : Vec F S2x512x512 .f32) (xo : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (out1_B_3 i x0 x1 x2 xo)) -∗ K ⟨⟩))
      ⊢ wp frame (wpE (defs₀ (F := F)) Variants.none c none) E (cc1__layer1_body i arg2 harg2 arg3 harg3 arg4 harg4 arg5 harg5) K := by
  simp only [cc1__layer1_body_eq_skeleton]; unfold cc1__layer1_body_skel
  unfold owns
  iintro ⟨⟨%f0, %hf0, H0⟩, ⟨%f1, %hf1, H1⟩, ⟨%f2, %hf2, H2⟩, ⟨%fo, %hfo, H3⟩, Hk⟩
  subst hf0; subst hf1; subst hf2; subst hfo
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## What the output buffer holds after each point -/

/-- The accumulation, by recursion on the point's position: an even point leaves its contribution, an odd point what
    the point before left plus its contribution. -/
def outsAt1 (c : Dev nD) : (n : ℕ) → n < cfg1.N → Vec F S1024x512 .f32
  | 0, hn => out1_A_3 (grid1.coords ⟨0, hn⟩) (iblk1 V c 0 ⟨0, hn⟩) (iblk1 V c 1 ⟨0, hn⟩) (iblk1 V c 2 ⟨0, hn⟩)
  | n + 1, hn =>
    if (n + 1) % 2 = 0 then
      out1_A_3 (grid1.coords ⟨n + 1, hn⟩) (iblk1 V c 0 ⟨n + 1, hn⟩) (iblk1 V c 1 ⟨n + 1, hn⟩) (iblk1 V c 2 ⟨n + 1, hn⟩)
    else
      out1_B_3 (grid1.coords ⟨n + 1, hn⟩) (iblk1 V c 0 ⟨n + 1, hn⟩) (iblk1 V c 1 ⟨n + 1, hn⟩) (iblk1 V c 2 ⟨n + 1, hn⟩)
        (outsAt1 c n (Nat.lt_of_succ_lt hn))

/-- At an even point: the contribution. -/
theorem outsAt1_A (c : Dev nD) (t : Fin cfg1.N) (h0 : t.val % 2 = 0) :
    outsAt1 V c t.val t.isLt = out1_A_3 (grid1.coords t) (iblk1 V c 0 t) (iblk1 V c 1 t) (iblk1 V c 2 t) := by
  obtain ⟨n, hn⟩ := t
  cases n with
  | zero => exact rfl
  | succ n => exact (if_pos h0).trans rfl

/-- At an odd point: what the point before left, plus the contribution. -/
theorem outsAt1_B (c : Dev nD) (t : Fin cfg1.N) (h0 : ¬ t.val % 2 = 0) :
    outsAt1 V c t.val t.isLt = out1_B_3 (grid1.coords t) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them; after the body at point `t` each
    input's buffer at its block and the output's at the accumulation; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At an odd point the output's current staging buffer holds what the body left at the point before: the point is
    not the first, the buffer was not written back between (only odd points write back), the window is live and uncut. -/
theorem before1_3_B (c : Dev nD) (t : Fin cfg1.N) (h0 : ¬ t.val % 2 = 0) (d) :
    (dat1 V c).before 3 t d = outsAt1 V c (t.val - 1) (Nat.lt_of_le_of_lt (Nat.sub_le _ _) t.isLt) := by
  have hN : t.val < 8 := lt_of_lt_of_eq t.isLt (show cfg1.N = 8 from N_1)
  rw [Dat.before_out_kept _ 3 rfl t (by omega)
    (Bool.eq_false_iff.mpr fun h => by have := (flush1_3 _).mp h; dsimp only at this; omega)
    live1_3 (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in
/-- The body at any point: the inputs' memrefs hold their blocks; the closed forms say which branch the point takes;
    at an odd point the output's memref holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 8 := lt_of_lt_of_eq t.isLt (show cfg1.N = 8 from N_1)
  by_cases h0 : t.val % 2 = 0
  · rw [outsAt1_A V c t h0]
    iintro ⟨HΦ, Ho, ⟨%d0, H0⟩, ⟨%d1, H1⟩, ⟨%d2, H2⟩, ⟨%d3, H3⟩⟩
    iapply (sound_kernel1_A c Set.univ (grid1.coords t) ((hcond1_1 t).mpr h0)
      (fun h => by have := (hcond1_2 t).mp h; omega) _ _ _ _ _ _ _ _
      (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_B V c t h0]
    simp only [before1_3_B V c t h0]
    iintro ⟨HΦ, Ho, ⟨%d0, H0⟩, ⟨%d1, H1⟩, ⟨%d2, H2⟩, ⟨%d3, H3⟩⟩
    iapply (sound_kernel1_B c Set.univ (grid1.coords t) (fun h => h0 ((hcond1_1 t).mp h))
      ((hcond1_2 t).mpr (by omega)) _ _ _ _ _ _ _ _
      (iblk1 V c 0 t) (iblk1 V c 1 t) (iblk1 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  have h3 : cfg1.idle 3 (cfg1.grid.coords t) = false := live1_3 _
  rw [h3]
  exact sound_body1 V c t

end

end Cert.Kernel.Hand

end
-- ==== Proof.K.Run.lean ====
/-
  The run of the whole program: the host operations that stack the weight matrices, then the two launches.

  The buffer contents at each boundary are a fold from the launch memory: after the host operations (`B1`), after the
  first launch (`B2`: its arrays at what its write-backs leave, every other buffer as it was), after the second (`B3`).
  Each launch is entered from "every unscoped buffer at the boundary's contents, the generator register at some
  state, nothing owed" and left at the same with the next contents; its arrays are split out of the buffers at entry
  and put back at exit.  Every weakly fair execution therefore terminates with every unscoped buffer at `B3`; the
  arguments read back through the fold to the launch memory (no host operation and no launch writes one), and the
  result buffer to what the second launch's write-backs leave.
-/
import proofs.«112696_g76459007803594_cont_9to1_m_617_25_alg».proof.Proof.K.Reg0
import proofs.«112696_g76459007803594_cont_9to1_m_617_25_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the host operations (the first launch's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first launch's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references (the second launch's entry). -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At the second launch's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## What the fold leaves at the buffers the claims read -/

/-- No host operation writes `b`: its contents after them are the launch contents. -/
theorem B1_of_not_written (c : Dev nD) (b : Ref sig .tc)
    (hb : b ≠ main_v0 ∧ b ≠ main_v1 ∧ b ≠ main_v2 ∧ b ≠ main_v3 ∧ b ≠ main_v4 ∧ b ≠ main_v5) :
    B1 m ρ c (Proc.devRef .tc b) = B0 m ρ c (Proc.devRef .tc b) := by
  obtain ⟨h0, h1, h2, h3, h4, h5⟩ := hb
  refine StableHlo.after_of_forall_not_mem (b := Proc.devRef .tc b) _ _ (List.forall_iff_forall_mem.mp ?_)
  simp only [hostOps0, List.Forall, StableHlo.unary_writes, StableHlo.binary_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5⟩

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) :=
      (B2_arr m ρ c 0).trans (((dat0 (E1 m ρ) c).arrAt_in 0 rfl _).trans (A_eq0 (E1 m ρ) c 0))
    _ = B0 m ρ c (Proc.devRef .tc main_arg0) := B1_of_not_written m ρ c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) :=
      (B2_arr m ρ c 1).trans (((dat0 (E1 m ρ) c).arrAt_in 1 rfl _).trans (A_eq0 (E1 m ρ) c 1))
    _ = B0 m ρ c (Proc.devRef .tc main_arg1) := B1_of_not_written m ρ c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := B1_of_not_written m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := B1_of_not_written m ρ c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := B1_of_not_written m ρ c main_arg4 (by decide)
    _ = m ((c : Thread nD τ).loc main_arg4) := rfl
theorem B3_main_arg5 (c : Dev nD) : B3 m ρ c (Proc.devRef .tc main_arg5) = m ((c : Thread nD τ).loc main_arg5) :=
  calc B3 m ρ c (Proc.devRef .tc main_arg5)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := B1_of_not_written m ρ c main_arg5 (by decide)
    _ = m ((c : Thread nD τ).loc main_arg5) := rfl

/-- The result buffer ends at what the second launch's write-backs leave in it. -/
theorem B3_main_v7 (c : Dev nD) : B3 m ρ c (Proc.devRef .tc main_v7) = (dat1 (E2 m ρ) c).arrAt 3 cfg1.N :=
  B3_arr m ρ c 3
/-- The second launch finds the first launch's two results where its write-backs left them, and the stack of the
    second layer's weights where the host operations left it. -/
theorem E2_main_v6_0 (c : Dev nD) : E2 m ρ c main_v6_0 = (dat0 (E1 m ρ) c).arrAt 3 cfg0.N := B2_arr m ρ c 3
theorem E2_main_v6_1 (c : Dev nD) : E2 m ρ c main_v6_1 = (dat0 (E1 m ρ) c).arrAt 4 cfg0.N := B2_arr m ρ c 4
theorem E2_main_v5 (c : Dev nD) : E2 m ρ c main_v5 = E1 m ρ c main_v5 := B2_of_ne m ρ c main_v5 (by decide)
/-- The first launch finds the two array arguments as launched. -/
theorem E1_main_arg0 (c : Dev nD) : E1 m ρ c main_arg0 = m ((c : Thread nD τ).loc main_arg0) :=
  B1_of_not_written m ρ c main_arg0 (by decide)
theorem E1_main_arg1 (c : Dev nD) : E1 m ρ c main_arg1 = m ((c : Thread nD τ).loc main_arg1) :=
  B1_of_not_written m ρ c main_arg1 (by decide)

/-! ## The proof data family and the thread state -/

/-- No pipeline has a prefetched table. -/
abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) R
/-- The last thread state without the dues. -/
abbrev Tₙ (c : Dev nD) : sProp 𝕄 := iprop(StableHlo.held (c : Thread nD τ) (Pipeline.ucRefs τ sig) (B3 m ρ c) ∗ ∃ r, prngReg c r)

/-! ## The launches as segments -/

set_option backward.isDefEq.respectTransparency.types false in
/-- The first launch over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `B2`, left at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg0 m ρ), .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds each unscoped buffer at `B3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

/-- The run with the result named: the result buffer ends at what the second launch's write-backs leave, the
    arguments as launched. -/
theorem run_value : θ_run defs (onTc (τ := τ) (main (F := F))) ⟨m, fun _ => 0, ρ⟩ (fun r => ∀ c : Dev nD,
      r.2.mem ((c.tc : Thread nD τ).loc main_v7) = (dat1 (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v7 (by decide))).trans (B3_main_v7 m ρ c),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

end Cert.Kernel.Hand

end
-- ==== Proof.KI.Reg0.lean ====
/-
  Region 0 of the program (the first layer, one launch over the grid (graph j, row panel r) of 2 x 8 points), at
  the buffer contents `V` the region is entered from.

  At a point the body reads the panel of 512 rows of the adjacency array (window 0), the whole feature array of the
  graph (window 1) and the graph's weight matrix (window 2), and writes two blocks: the panel narrowed to the short
  float format (window 4) and the panel of the layer's result (window 3).  Each output buffer is written by ONE store
  through the rectangle of the whole buffer, so what the body leaves in it is that store's payload, a function of the
  three input blocks (and, for window 3, of the grid point, which selects the rows of the feature array added back).
  The input buffers are left as found.  Nothing is carried from one point to the next.
-/
import proofs.«112696_g76459007803594_cont_9to1_m_617_25_alg».proof.Proof.Gen.KernelIdeal.Launch
import proofs.«112696_g76459007803594_cont_9to1_m_617_25_alg».proof.Proof.Gen.KernelIdeal.Skeleton
import proofs.«112696_g76459007803594_cont_9to1_m_617_25_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (where it is not fetched the block index has not moved), for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole adjacency panel (window 0's buffer, and window 4's). -/
abbrev rA0 : Rect S1x512x4096 := Rect.unit (s := S1x512x4096) ![0, 0, 0] S1x512x4096.size inb_S1x512x4096_S1x512x4096_0_0_0
/-- The whole feature array of the graph (window 1's buffer). -/
abbrev rX0 : Rect S1x4096x512 := Rect.unit (s := S1x4096x512) ![0, 0, 0] S1x4096x512.size inb_S1x4096x512_S1x4096x512_0_0_0
/-- The rows of the feature array that belong to the point's row panel. -/
abbrev rXr0 (i : grid0.Coords) : Rect S1x4096x512 := Rect.unit (s := S1x4096x512) (k0_off1 i) S1x512x512.size (k0_off1_inb i)
/-- The whole weight matrix (window 2's buffer, and window 3's). -/
abbrev rW0 : Rect S1x512x512 := Rect.unit (s := S1x512x512) ![0, 0, 0] S1x512x512.size inb_S1x512x512_S1x512x512_0_0_0

/-! ## What the body leaves in each output window's buffer -/

/-- Window 3's buffer after the body, from the input blocks: its one store as a piece. -/
def out0_3 (i : grid0.Coords) (x0 : Vec F S1x512x4096 .f32) (x1 : Vec F S1x4096x512 .f32) (x2 : Vec F S1x512x512 .f32) : Vec F S1x512x512 .bf16 :=
  View.canon [⟨rW0, k0_pay3 (View.ld x0 rA0) (View.ld x1 rX0) (View.ld x1 (rXr0 i)) (View.ld x2 rW0)⟩]

/-- Window 4's buffer after the body, from the adjacency panel: its one store as a piece. -/
def out0_4 (x0 : Vec F S1x512x4096 .f32) : Vec F S1x512x4096 .bf16 :=
  View.canon [⟨rA0, k0_pay2 (View.ld x0 rA0)⟩]

/-- The one store covers the buffer. -/
theorem cover0_3 (p0 : Vec F S1x512x512 .bf16) (y : S1x512x512.Idx) :
    ∃ pc ∈ ([⟨rW0, p0⟩] : List (View.Piece (Elt F) S1x512x512 .bf16)), y ∈ pc.1.set :=
  ⟨_, List.mem_singleton_self _, View.mem_set_unit_zero (by funext a; fin_cases a <;> rfl) inb_S1x512x512_S1x512x512_0_0_0 y⟩
theorem cover0_4 (p0 : Vec F S1x512x4096 .bf16) (y : S1x512x4096.Idx) :
    ∃ pc ∈ ([⟨rA0, p0⟩] : List (View.Piece (Elt F) S1x512x4096 .bf16)), y ∈ pc.1.set :=
  ⟨_, List.mem_singleton_self _, View.mem_set_unit_zero (by funext a; fin_cases a <;> rfl) inb_S1x512x4096_S1x512x4096_0_0_0 y⟩

/-! ## The body's triple -/

set_option maxHeartbeats 1000000 in
/-- The body on whole staging memrefs, the inputs' at contents `x0`, `x1`, `x2` and the outputs' at anything, runs to
    the continuation holding the inputs' as they were and each output's at its store's payload. -/
theorem sound_kernel0 (c : Dev nD) (E : Set ℕ) (i : grid0.Coords)
    (arg2 : Memref sig .tc .vmem S1x512x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x512x512 .bf16) (harg5 : arg5.IsWhole)
    (arg6 : Memref sig .tc .vmem S1x512x4096 .bf16) (harg6 : arg6.IsWhole)
    (x0 : Vec F S1x512x4096 .f32) (x1 : Vec F S1x4096x512 .f32) (x2 : Vec F S1x512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2) ∗ owns (c : Thread nD τ) arg6 fullShare (out0_4 x0)) -∗ K ⟨⟩))
      ⊢ wp frame (wpE (defs₀ (F := F)) Variants.none c none) E (cc0__layer0_body i arg2 harg2 arg3 harg3 arg4 harg4 arg5 harg5 arg6 harg6) K := by
  simp only [cc0__layer0_body_eq_skeleton]; unfold cc0__layer0_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them; after the body at point `t` each
    input's buffer at its block and each output's at its store's payload of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Reg1.lean ====
/-
  Region 1 of the program (the second layer, one launch over the grid (row panel r, graph j) of 4 x 2 points), at
  the buffer contents `V` the region is entered from.

  At a point the body reads the panel of 1024 rows of graph j's narrowed adjacency array (window 0), and from the
  whole first-layer result and the whole stack of weight matrices, both resident (windows 1 and 2), the parts of
  graph j.  Its contribution is the layer's result for those rows, halved.  The output block (window 3) is the same
  for the two points of a row panel: at j = 0 the body stores the contribution, at j = 1 it loads the block, adds
  the contribution and stores the sum; the block is written back after the second.  So what the output buffer holds
  after a point is defined by recursion on the point: the contribution at an even point, the contents the point
  before left plus the contribution at an odd one.  The input buffers are left as found.
-/
import proofs.«112696_g76459007803594_cont_9to1_m_617_25_alg».proof.Proof.Gen.KernelIdeal.Launch
import proofs.«112696_g76459007803594_cont_9to1_m_617_25_alg».proof.Proof.Gen.KernelIdeal.Skeleton
import proofs.«112696_g76459007803594_cont_9to1_m_617_25_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole adjacency panel (window 0's buffer). -/
abbrev rA1 : Rect S1x1024x4096 := Rect.unit (s := S1x1024x4096) ![0, 0, 0] S1x1024x4096.size inb_S1x1024x4096_S1x1024x4096_0_0_0
/-- Graph j's slab of the first-layer result. -/
abbrev rH1 (i : grid1.Coords) : Rect S2x4096x512 := Rect.unit (s := S2x4096x512) (k1_off1 i) S1x4096x512.size (k1_off1_inb i)
/-- The rows of that slab that belong to the point's row panel. -/
abbrev rHr1 (i : grid1.Coords) : Rect S2x4096x512 := Rect.unit (s := S2x4096x512) (k1_off2 i) S1x1024x512.size (k1_off2_inb i)
/-- Graph j's weight matrix in the stack. -/
abbrev rW1 (i : grid1.Coords) : Rect S2x512x512 := Rect.unit (s := S2x512x512) (k1_off3 i) S1x512x512.size (k1_off3_inb i)
/-- The whole output block (window 3's buffer). -/
abbrev rO1 : Rect S1024x512 := Rect.unit (s := S1024x512) ![0, 0] S1024x512.size inb_S1024x512_S1024x512_0_0

/-! ## The branch conditions over the grid -/

/-- The first branch (store the contribution) is taken at the even points: graph 0. -/
theorem hcond1_1 : ∀ t : Fin cfg1.N, k1_cond1 (grid1.coords t) = 1#1 ↔ t.val % 2 = 0 :=
  (by decide +kernel : ∀ t : Fin grid1.N, k1_cond1 (grid1.coords t) = 1#1 ↔ t.val % 2 = 0)
/-- The second branch (add the contribution) is taken at the odd points: graph 1. -/
theorem hcond1_2 : ∀ t : Fin cfg1.N, k1_cond2 (grid1.coords t) = 1#1 ↔ t.val % 2 = 1 :=
  (by decide +kernel : ∀ t : Fin grid1.N, k1_cond2 (grid1.coords t) = 1#1 ↔ t.val % 2 = 1)

/-- Every point takes one of the two branches, so the output window is idle nowhere. -/
theorem live1_3 : ∀ i : grid1.Coords, cfg1.idle 3 i = false := by
  decide +kernel

/-! ## What the body leaves in the output window's buffer -/

/-- The point's contribution: the halved second-layer result for the panel's rows, from the input blocks. -/
def contrib1 (i : grid1.Coords) (x0 : Vec F S1x1024x4096 .bf16) (x1 : Vec F S2x4096x512 .bf16) (x2 : Vec F S2x512x512 .f32) : Vec F S1024x512 .f32 :=
  k1_pay1 (View.ld x0 rA1) (View.ld x1 (rH1 i)) (View.ld x1 (rHr1 i)) (View.ld x2 (rW1 i))

/-- Window 3's buffer after the body where the first branch is taken: the contribution, stored whole. -/
def out1_A_3 (i : grid1.Coords) (x0 : Vec F S1x1024x4096 .bf16) (x1 : Vec F S2x4096x512 .bf16) (x2 : Vec F S2x512x512 .f32) : Vec F S1024x512 .f32 :=
  View.canon [⟨rO1, contrib1 i x0 x1 x2⟩]

/-- Window 3's buffer after the body where the second branch is taken, from what it held (`xo`): the sum, stored whole. -/
def out1_B_3 (i : grid1.Coords) (x0 : Vec F S1x1024x4096 .bf16) (x1 : Vec F S2x4096x512 .bf16) (x2 : Vec F S2x512x512 .f32)
    (xo : Vec F S1024x512 .f32) : Vec F S1024x512 .f32 :=
  View.canon [⟨rO1, k1_pay2 (View.ld x0 rA1) (View.ld x1 (rH1 i)) (View.ld x1 (rHr1 i)) (View.ld x2 (rW1 i)) (View.ld xo rO1)⟩]

/-- The one store covers the buffer. -/
theorem cover1_3 (p0 : Vec F S1024x512 .f32) (y : S1024x512.Idx) :
    ∃ pc ∈ ([⟨rO1, p0⟩] : List (View.Piece (Elt F) S1024x512 .f32)), y ∈ pc.1.set :=
  ⟨_, List.mem_singleton_self _, View.mem_set_unit_zero (by funext a; fin_cases a <;> rfl) inb_S1024x512_S1024x512_0_0 y⟩

/-! ## The body's triple, branch by branch -/

set_option maxHeartbeats 1000000 in
/-- Where the first branch is taken: the inputs' memrefs at `x0`, `x1`, `x2`, the output's at anything; the body runs to
    the continuation holding the inputs' as they were and the output's at the contribution. -/
theorem sound_kernel1_A (c : Dev nD) (E : Set ℕ) (i : grid1.Coords) (hc1 : k1_cond1 i = 1#1) (hc2 : ¬ k1_cond2 i = 1#1)
    (arg2 : Memref sig .tc .vmem S1x1024x4096 .bf16) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (x0 : Vec F S1x1024x4096 .bf16) (x1 : Vec F S2x4096x512 .bf16) (x2 : Vec F S2x512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_A_3 i x0 x1 x2)) -∗ K ⟨⟩))
      ⊢ wp frame (wpE (defs₀ (F := F)) Variants.none c none) E (cc1__layer1_body i arg2 harg2 arg3 harg3 arg4 harg4 arg5 harg5) K := by
  simp only [cc1__layer1_body_eq_skeleton]; unfold cc1__layer1_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

set_option maxHeartbeats 1000000 in
/-- Where the second branch is taken: the output's memref at `xo`; the body runs to the continuation holding the
    output's at `xo` plus the contribution. -/
theorem sound_kernel1_B (c : Dev nD) (E : Set ℕ) (i : grid1.Coords) (hc1 : ¬ k1_cond1 i = 1#1) (hc2 : k1_cond2 i = 1#1)
    (arg2 : Memref sig .tc .vmem S1x1024x4096 .bf16) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (x0 : Vec F S1x1024x4096 .bf16) (x1 : Vec F S2x4096x512 .bf16) (x2 : Vec F S2x512x512 .f32) (xo : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (out1_B_3 i x0 x1 x2 xo)) -∗ K ⟨⟩))
      ⊢ wp frame (wpE (defs₀ (F := F)) Variants.none c none) E (cc1__layer1_body i arg2 harg2 arg3 harg3 arg4 harg4 arg5 harg5) K := by
  simp only [cc1__layer1_body_eq_skeleton]; unfold cc1__layer1_body_skel
  unfold owns
  iintro ⟨⟨%f0, %hf0, H0⟩, ⟨%f1, %hf1, H1⟩, ⟨%f2, %hf2, H2⟩, ⟨%fo, %hfo, H3⟩, Hk⟩
  subst hf0; subst hf1; subst hf2; subst hfo
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## What the output buffer holds after each point -/

/-- The accumulation, by recursion on the point's position: an even point leaves its contribution, an odd point what
    the point before left plus its contribution. -/
def outsAt1 (c : Dev nD) : (n : ℕ) → n < cfg1.N → Vec F S1024x512 .f32
  | 0, hn => out1_A_3 (grid1.coords ⟨0, hn⟩) (iblk1 V c 0 ⟨0, hn⟩) (iblk1 V c 1 ⟨0, hn⟩) (iblk1 V c 2 ⟨0, hn⟩)
  | n + 1, hn =>
    if (n + 1) % 2 = 0 then
      out1_A_3 (grid1.coords ⟨n + 1, hn⟩) (iblk1 V c 0 ⟨n + 1, hn⟩) (iblk1 V c 1 ⟨n + 1, hn⟩) (iblk1 V c 2 ⟨n + 1, hn⟩)
    else
      out1_B_3 (grid1.coords ⟨n + 1, hn⟩) (iblk1 V c 0 ⟨n + 1, hn⟩) (iblk1 V c 1 ⟨n + 1, hn⟩) (iblk1 V c 2 ⟨n + 1, hn⟩)
        (outsAt1 c n (Nat.lt_of_succ_lt hn))

/-- At an even point: the contribution. -/
theorem outsAt1_A (c : Dev nD) (t : Fin cfg1.N) (h0 : t.val % 2 = 0) :
    outsAt1 V c t.val t.isLt = out1_A_3 (grid1.coords t) (iblk1 V c 0 t) (iblk1 V c 1 t) (iblk1 V c 2 t) := by
  obtain ⟨n, hn⟩ := t
  cases n with
  | zero => exact rfl
  | succ n => exact (if_pos h0).trans rfl

/-- At an odd point: what the point before left, plus the contribution. -/
theorem outsAt1_B (c : Dev nD) (t : Fin cfg1.N) (h0 : ¬ t.val % 2 = 0) :
    outsAt1 V c t.val t.isLt = out1_B_3 (grid1.coords t) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them; after the body at point `t` each
    input's buffer at its block and the output's at the accumulation; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At an odd point the output's current staging buffer holds what the body left at the point before: the point is
    not the first, the buffer was not written back between (only odd points write back), the window is live and uncut. -/
theorem before1_3_B (c : Dev nD) (t : Fin cfg1.N) (h0 : ¬ t.val % 2 = 0) (d) :
    (dat1 V c).before 3 t d = outsAt1 V c (t.val - 1) (Nat.lt_of_le_of_lt (Nat.sub_le _ _) t.isLt) := by
  have hN : t.val < 8 := lt_of_lt_of_eq t.isLt (show cfg1.N = 8 from N_1)
  rw [Dat.before_out_kept _ 3 rfl t (by omega)
    (Bool.eq_false_iff.mpr fun h => by have := (flush1_3 _).mp h; dsimp only at this; omega)
    live1_3 (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in
/-- The body at any point: the inputs' memrefs hold their blocks; the closed forms say which branch the point takes;
    at an odd point the output's memref holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 8 := lt_of_lt_of_eq t.isLt (show cfg1.N = 8 from N_1)
  by_cases h0 : t.val % 2 = 0
  · rw [outsAt1_A V c t h0]
    iintro ⟨HΦ, Ho, ⟨%d0, H0⟩, ⟨%d1, H1⟩, ⟨%d2, H2⟩, ⟨%d3, H3⟩⟩
    iapply (sound_kernel1_A c Set.univ (grid1.coords t) ((hcond1_1 t).mpr h0)
      (fun h => by have := (hcond1_2 t).mp h; omega) _ _ _ _ _ _ _ _
      (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_B V c t h0]
    simp only [before1_3_B V c t h0]
    iintro ⟨HΦ, Ho, ⟨%d0, H0⟩, ⟨%d1, H1⟩, ⟨%d2, H2⟩, ⟨%d3, H3⟩⟩
    iapply (sound_kernel1_B c Set.univ (grid1.coords t) (fun h => h0 ((hcond1_1 t).mp h))
      ((hcond1_2 t).mpr (by omega)) _ _ _ _ _ _ _ _
      (iblk1 V c 0 t) (iblk1 V c 1 t) (iblk1 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  have h3 : cfg1.idle 3 (cfg1.grid.coords t) = false := live1_3 _
  rw [h3]
  exact sound_body1 V c t

end

end Cert.KernelIdeal.Hand

end
-- ==== Proof.KI.Run.lean ====
/-
  The run of the whole program: the host operations that stack the weight matrices, then the two launches.

  The buffer contents at each boundary are a fold from the launch memory: after the host operations (`B1`), after the
  first launch (`B2`: its arrays at what its write-backs leave, every other buffer as it was), after the second (`B3`).
  Each launch is entered from "every unscoped buffer at the boundary's contents, the generator register at some
  state, nothing owed" and left at the same with the next contents; its arrays are split out of the buffers at entry
  and put back at exit.  Every weakly fair execution therefore terminates with every unscoped buffer at `B3`; the
  arguments read back through the fold to the launch memory (no host operation and no launch writes one), and the
  result buffer to what the second launch's write-backs leave.
-/
import proofs.«112696_g76459007803594_cont_9to1_m_617_25_alg».proof.Proof.KI.Reg0
import proofs.«112696_g76459007803594_cont_9to1_m_617_25_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the host operations (the first launch's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first launch's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references (the second launch's entry). -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At the second launch's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## What the fold leaves at the buffers the claims read -/

/-- No host operation writes `b`: its contents after them are the launch contents. -/
theorem B1_of_not_written (c : Dev nD) (b : Ref sig .tc)
    (hb : b ≠ main_v0 ∧ b ≠ main_v1 ∧ b ≠ main_v2 ∧ b ≠ main_v3 ∧ b ≠ main_v4 ∧ b ≠ main_v5) :
    B1 m ρ c (Proc.devRef .tc b) = B0 m ρ c (Proc.devRef .tc b) := by
  obtain ⟨h0, h1, h2, h3, h4, h5⟩ := hb
  refine StableHlo.after_of_forall_not_mem (b := Proc.devRef .tc b) _ _ (List.forall_iff_forall_mem.mp ?_)
  simp only [hostOps0, List.Forall, StableHlo.unary_writes, StableHlo.binary_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5⟩

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) :=
      (B2_arr m ρ c 0).trans (((dat0 (E1 m ρ) c).arrAt_in 0 rfl _).trans (A_eq0 (E1 m ρ) c 0))
    _ = B0 m ρ c (Proc.devRef .tc main_arg0) := B1_of_not_written m ρ c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) :=
      (B2_arr m ρ c 1).trans (((dat0 (E1 m ρ) c).arrAt_in 1 rfl _).trans (A_eq0 (E1 m ρ) c 1))
    _ = B0 m ρ c (Proc.devRef .tc main_arg1) := B1_of_not_written m ρ c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := B1_of_not_written m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := B1_of_not_written m ρ c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := B1_of_not_written m ρ c main_arg4 (by decide)
    _ = m ((c : Thread nD τ).loc main_arg4) := rfl
theorem B3_main_arg5 (c : Dev nD) : B3 m ρ c (Proc.devRef .tc main_arg5) = m ((c : Thread nD τ).loc main_arg5) :=
  calc B3 m ρ c (Proc.devRef .tc main_arg5)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := B1_of_not_written m ρ c main_arg5 (by decide)
    _ = m ((c : Thread nD τ).loc main_arg5) := rfl

/-- The result buffer ends at what the second launch's write-backs leave in it. -/
theorem B3_main_v7 (c : Dev nD) : B3 m ρ c (Proc.devRef .tc main_v7) = (dat1 (E2 m ρ) c).arrAt 3 cfg1.N :=
  B3_arr m ρ c 3
/-- The second launch finds the first launch's two results where its write-backs left them, and the stack of the
    second layer's weights where the host operations left it. -/
theorem E2_main_v6_0 (c : Dev nD) : E2 m ρ c main_v6_0 = (dat0 (E1 m ρ) c).arrAt 3 cfg0.N := B2_arr m ρ c 3
theorem E2_main_v6_1 (c : Dev nD) : E2 m ρ c main_v6_1 = (dat0 (E1 m ρ) c).arrAt 4 cfg0.N := B2_arr m ρ c 4
theorem E2_main_v5 (c : Dev nD) : E2 m ρ c main_v5 = E1 m ρ c main_v5 := B2_of_ne m ρ c main_v5 (by decide)
/-- The first launch finds the two array arguments as launched. -/
theorem E1_main_arg0 (c : Dev nD) : E1 m ρ c main_arg0 = m ((c : Thread nD τ).loc main_arg0) :=
  B1_of_not_written m ρ c main_arg0 (by decide)
theorem E1_main_arg1 (c : Dev nD) : E1 m ρ c main_arg1 = m ((c : Thread nD τ).loc main_arg1) :=
  B1_of_not_written m ρ c main_arg1 (by decide)

/-! ## The proof data family and the thread state -/

/-- No pipeline has a prefetched table. -/
abbrev adm : (p : Fin 2) → (pcfgs (F := F) p).Adm := fun p => (cfgs p).toPCfg_adm
/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) R
/-- The last thread state without the dues. -/
abbrev Tₙ (c : Dev nD) : sProp 𝕄 := iprop(StableHlo.held (c : Thread nD τ) (Pipeline.ucRefs τ sig) (B3 m ρ c) ∗ ∃ r, prngReg c r)

/-! ## The launches as segments -/

set_option backward.isDefEq.respectTransparency.types false in
/-- The first launch over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `B2`, left at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg0 m ρ), .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds each unscoped buffer at `B3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

/-- The run with the result named: the result buffer ends at what the second launch's write-backs leave, the
    arguments as launched. -/
theorem run_value : θ_run defs (onTc (τ := τ) (main (F := F))) ⟨m, fun _ => 0, ρ⟩ (fun r => ∀ c : Dev nD,
      r.2.mem ((c.tc : Thread nD τ).loc main_v7) = (dat1 (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v7 (by decide))).trans (B3_main_v7 m ρ c),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

end Cert.KernelIdeal.Hand

end
-- ==== Proof.Spec.lean ====
/-
  The network as mathematics, over the extended reals.

  One layer maps a block of adjacency rows A (R x N), node features h (N x D), the features of the block's own rows
  hr (R x D) and a weight matrix W (D x D') to

      layer A h hr W (r, q) = sum over k2 of (c9 * (sum over k of A(r,k) * h(k,k2)) + c1 * hr(r,k2)) * W(k2,q),

  with c9 and c1 the two literals the programs share (the values written 0.9 and 0.1, as their binary words).  The
  hidden features of graph j are the first layer clipped below at zero; the result is the sum over the two graphs of
  the second layer of the hidden features, each halved.  The reference adds the two graphs' second layers (onto a
  zero) and divides by two; the two agree because a finite nonnegative factor distributes over a sum of extended
  reals, whatever the summands.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literal written 0.9. -/
abbrev c9 : EReal := Ideal.ofBits .f32 0x3F666666#32
/-- The literal written 0.1. -/
abbrev c1 : EReal := Ideal.ofBits .f32 0x3DCCCCCD#32
/-- The literal one half. -/
abbrev half : EReal := Ideal.ofBits .f32 0x3F000000#32
/-- The zero word. -/
abbrev zero : EReal := Ideal.ofBits .f32 0x00000000#32

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- One layer at row `r` and column `q`. -/
def layer {R N D D' : Nat} (A : Fin R → Fin N → EReal) (h : Fin N → Fin D → EReal) (hr : Fin R → Fin D → EReal)
    (W : Fin D → Fin D' → EReal) (r : Fin R) (q : Fin D') : EReal :=
  ∑ k2 : Fin D, (c9 * (∑ k : Fin N, A r k * h k k2) + c1 * hr r k2) * W k2 q

/-- The arrays of the program, by shape. -/
abbrev Adj : Type := (⟨3, ![2, 4096, 4096]⟩ : Shape).Idx → EReal
abbrev Feat : Type := (⟨3, ![2, 4096, 512]⟩ : Shape).Idx → EReal
abbrev Wt : Type := (⟨2, ![512, 512]⟩ : Shape).Idx → EReal
abbrev WStack : Type := (⟨3, ![2, 512, 512]⟩ : Shape).Idx → EReal
abbrev Res : Type := (⟨2, ![4096, 512]⟩ : Shape).Idx → EReal

/-- The layer of graph `j` over whole arrays, at node `r` and feature `q`. -/
def layerAt (adj : Adj) (h : Feat) (w : WStack) (j : Fin 2) (r : Fin 4096) (q : Fin 512) : EReal :=
  layer (fun r k => adj (ix3 j r k)) (fun k d => h (ix3 j k d)) (fun r d => h (ix3 j r d)) (fun k q => w (ix3 j k q)) r q

/-- The hidden features: the first layer clipped below at zero. -/
def hid (adj : Adj) (x : Feat) (w : WStack) : Feat :=
  fun i => max (layerAt adj x w (i 0) (i 1) (i 2)) zero

/-- The result from the hidden features: the two graphs' second layers, each halved, added. -/
def res (adj : Adj) (h : Feat) (w : WStack) : Res :=
  fun i => layerAt adj h w 0 (i 0) (i 1) * half + layerAt adj h w 1 (i 0) (i 1) * half

/-- Two weight matrices stacked along a new leading axis. -/
def stack (a b : Wt) : WStack :=
  fun i => if (i 0).val = 0 then a (ix2 (i 1) (i 2)) else b (ix2 (i 1) (i 2))

/-- The whole network. -/
def net (adj : Adj) (x : Feat) (w00 w01 w10 w11 : Wt) : Res :=
  res adj (hid adj x (stack w00 w01)) (stack w10 w11)

/-- Halving distributes over the sum of two extended reals, and the quotient by two is the product with one half:
    the reference's "add onto zero, add, divide by two" is the kernel's "halve each, add". -/
theorem half_law (a b : EReal) :
    Ideal.div ((zero + a) + b) (Ideal.ofBits .f32 0x40000000#32) = a * half + b * half := by
  have hz : zero = 0 := Ideal.ofBits_zero_f32
  rw [hz, zero_add, ofBits_two, Ideal.div_coe (by norm_num : (2 : ℝ) ≠ 0)]
  show (a + b) * ((1 / 2 : ℝ) : EReal) = a * half + b * half
  rw [show half = ((1 / 2 : ℝ) : EReal) from ofBits_half]
  exact EReal.right_distrib_of_nonneg_of_ne_top (by exact_mod_cast (by norm_num : (0 : ℝ) ≤ 1 / 2)) (EReal.coe_ne_top _) a b

end Cert.Spec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KI.Pay0.lean ====
/-
  What the first launch's body stores, read at an index, over the extended reals.

  The narrowed adjacency panel is the panel itself (narrowing a float is the identity on extended reals).  The
  result panel at row p and column q is the first layer clipped below at zero: the two matrix products are plain sums
  over the contracted index, the first of the adjacency panel's row p against the graph's features, the second of
  the mixed row against the weight matrix; the features added back are those of row (panel number) * 512 + p.
-/
import proofs.«112696_g76459007803594_cont_9to1_m_617_25_alg».proof.Proof.KI.Reg0
import proofs.«112696_g76459007803594_cont_9to1_m_617_25_alg».proof.Proof.Spec
import proofs.«112696_g76459007803594_cont_9to1_m_617_25_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The narrowed panel -/

/-- The panel with its leading unit axis dropped and its format narrowed, at row `p` and column `k`: the panel's value
    there (narrowing is the identity on extended reals). -/
theorem pay1_apply (v0 : Vec Ideal S1x512x4096 .f32) (p : Fin 512) (k : Fin 4096) :
    k0_pay1 (F := Ideal) v0 (ix2 p k) = v0 (ix3 0 p k) := by
  unfold k0_pay1
  exact shapeCast_1ab_ab_apply (α := EReal) v0 _ p k

/-- The narrowed panel holds the panel's values. -/
theorem out0_4_apply (x0 : Vec Ideal S1x512x4096 .f32) (y : S1x512x4096.Idx) :
    out0_4 (F := Ideal) x0 y = x0 y := by
  obtain ⟨u, p, k, rfl⟩ : ∃ (u : Fin 1) (p : Fin 512) (k : Fin 4096), y = ix3 u p k := ⟨y 0, y 1, y 2, eq_ix3 y⟩
  obtain rfl : u = 0 := Subsingleton.elim _ _
  unfold out0_4
  rw [View.canon_unit_zero (by funext a; fin_cases a <;> rfl), View.ld_unit_zero (by funext a; fin_cases a <;> rfl)]
  unfold k0_pay2
  exact (shapeCast_ab_1ab_apply (α := EReal) _ _ 0 p k).trans (pay1_apply x0 p k)

/-! ## The result panel -/

/-- The rows of the feature array the point adds back, at row `p` and column `d`: the features of node `r`, the
    panel's row `p` counted in the whole graph (the rows start at 512 times the panel's number). -/
theorem xr_apply (i : grid0.Coords) (x1 : Vec Ideal S1x4096x512 .f32) (p d : Fin 512) (r : Fin 4096)
    (hr : r.val = (i 1).val * 512 + p.val) :
    View.ld x1 (rXr0 i) (ix3 0 p d) = x1 (ix3 0 r d) := by
  show x1 ((rXr0 i).idx (ix3 0 p d)) = x1 (ix3 0 r d)
  refine congrArg x1 (funext fun a => Fin.ext ?_)
  have h := k0_off1_eq i
  match a with
  | ⟨0, _⟩ =>
    show k0_off1 i 0 + 1 * 0 = 0
    rw [h]; rfl
  | ⟨1, _⟩ =>
    show k0_off1 i 1 + 1 * p.val = r.val
    rw [h, hr]
    show 512 * (i 1).val + 1 * p.val = (i 1).val * 512 + p.val
    omega
  | ⟨2, _⟩ =>
    show k0_off1 i 2 + 1 * d.val = d.val
    rw [h]
    show 0 + 1 * d.val = d.val
    omega

/-- The store's payload at `(p, q)`, for any four loaded blocks: the two products are plain sums over the contracted
    index, the scalings and the sum are the extended reals', every format change is the identity. -/
theorem pay3_apply (v0 : Vec Ideal S1x512x4096 .f32) (v6 : Vec Ideal S1x4096x512 .f32) (v12 v20 : Vec Ideal S1x512x512 .f32)
    (p q : Fin 512) :
    k0_pay3 (F := Ideal) v0 v6 v12 v20 (ix3 0 p q)
      = max (∑ k2 : Fin 512, (Cert.Spec.c9 * (∑ k : Fin 4096, v0 (ix3 0 p k) * v6 (ix3 0 k k2)) + Cert.Spec.c1 * v12 (ix3 0 p k2))
              * v20 (ix3 0 k2 q)) Cert.Spec.zero := by
  unfold k0_pay3
  refine (shapeCast_ab_1ab_apply (α := EReal) _ _ 0 p q).trans ?_
  refine (truncf_apply (φ := .f32) (ψ := .bf16) _ _ _).trans ?_
  refine (maximumf_apply _ _ _).trans ?_
  refine congrArg₂ max ?_ rfl
  refine (Ideal.matmul_constant_zero_apply _ none _ _ _).trans ?_
  refine (PlainDot.sum_eq dot_S512x512_S512x512_S512x512_1_0_0_1_n_n rfl rfl rfl rfl rfl rfl _ _ p q).trans ?_
  refine Finset.sum_congr rfl fun k2 _ => ?_
  refine congrArg₂ (· * ·) ?_ ?_
  · refine (truncf_apply (φ := .f32) (ψ := .bf16) _ _ _).trans ?_
    refine (addf_apply _ _ _).trans ?_
    refine congrArg₂ (· + ·) ?_ ?_
    · refine (mulf_apply _ _ _).trans ?_
      refine congrArg₂ (· * ·) rfl ?_
      refine (Ideal.matmul_constant_zero_apply _ none _ _ _).trans ?_
      refine (PlainDot.sum_eq dot_S512x4096_S4096x512_S512x512_1_0_0_1_n_n rfl rfl rfl rfl rfl rfl _ _ p k2).trans ?_
      refine Finset.sum_congr rfl fun k _ => ?_
      refine congrArg₂ (· * ·) (pay1_apply v0 p k) ?_
      exact shapeCast_1ab_ab_apply (α := EReal) v6 _ k k2
    · refine (mulf_apply _ _ _).trans ?_
      refine congrArg₂ (· * ·) rfl ?_
      exact shapeCast_1ab_ab_apply (α := EReal) v12 _ p k2
  · exact shapeCast_1ab_ab_apply (α := EReal) v20 _ k2 q

/-- The result panel at `(p, q)`: the first layer at the panel's row `p`, with the features of node `r` (the panel's
    row `p` in the whole graph) added back, clipped below at zero. -/
theorem out0_3_apply (i : grid0.Coords) (x0 : Vec Ideal S1x512x4096 .f32) (x1 : Vec Ideal S1x4096x512 .f32) (x2 : Vec Ideal S1x512x512 .f32)
    (p q : Fin 512) (r : Fin 4096) (hr : r.val = (i 1).val * 512 + p.val) :
    out0_3 (F := Ideal) i x0 x1 x2 (ix3 0 p q)
      = max (Cert.Spec.layer (fun p k => x0 (ix3 0 p k)) (fun k d => x1 (ix3 0 k d)) (fun _ d => x1 (ix3 0 r d)) (fun k q => x2 (ix3 0 k q)) p q)
          Cert.Spec.zero := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  refine (pay3_apply x0 x1 (View.ld x1 (rXr0 i)) x2 p q).trans ?_
  unfold Cert.Spec.layer
  refine congrArg₂ max (Finset.sum_congr rfl fun k2 _ => ?_) rfl
  rw [xr_apply i x1 p k2 r hr]

end Cert.KernelIdeal.Hand

end
-- ==== Proof.KI.Val0.lean ====
/-
  What the first launch leaves in its two result arrays, over the extended reals, at any entry contents `V`.

  The grid point t = (graph j, panel r) writes back block (j, r) of each result: 512 rows.  Every block of the
  hidden-features array is the restriction of ONE whole-array function, the first layer of the whole graph clipped
  at zero, because the point's input blocks are the graph's adjacency rows r*512 .. r*512+511, the graph's whole
  feature array and the graph's weight matrix; the blocks cover the array (row n of graph j is in block
  (j, n / 512)).  Likewise the narrowed adjacency array is the adjacency array.
-/
import proofs.«112696_g76459007803594_cont_9to1_m_617_25_alg».proof.Proof.KI.Pay0
import proofs.«112696_g76459007803594_cont_9to1_m_617_25_alg».proof.Proof.Spec
import proofs.«112696_g76459007803594_cont_9to1_m_617_25_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## Where the blocks sit -/

/-- The block indices at point `t`: the point is (graph `t / 8`, panel `t % 8`); the adjacency windows and the result
    window sit at block (graph, panel, 0), the feature and weight windows at block (graph, 0, 0). -/
theorem blockIdx0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0
    ∧ ((grid0.coords t) 0).val = t.val / 8 ∧ ((grid0.coords t) 1).val = t.val % 8 :=
  (by decide +kernel : ∀ t : Fin grid0.N, _)

/-- The point of graph `j` and panel `r`. -/
theorem pointOf0 (j : Fin 2) (r : Fin 8) : ∃ t : Fin cfg0.N, t.val = j.val * 8 + r.val :=
  ⟨⟨j.val * 8 + r.val, by show _ < grid0.N; rw [N_0]; omega⟩, rfl⟩

/-! ## The narrowed adjacency array -/

/-- What point `t` writes back of the narrowed adjacency array is its block of the adjacency array. -/
theorem flushed0_4_eq (c : Dev nD) (t : Fin cfg0.N) :
    (dat0 (F := Ideal) V c).flushed 4 t = ((cfg0.win 4).blk t).view.read (Elt Ideal) (V c main_arg0 : S2x4096x4096.Idx → EReal) := by
  show (cfg0.win 4).cut (grid0.coords t) ((dat0 V c).after 4 t) = _
  rw [after0_4]
  obtain ⟨a00, a01, a02, -, -, -, -, -, -, -, -, -, a40, a41, a42, -, -⟩ := blockIdx0 t
  funext y
  show out0_4 (iblk0 V c 0 t) y = V c main_arg0 (((cfg0.win 4).blk t).view.emb y)
  refine (out0_4_apply (iblk0 V c 0 t) y).trans ?_
  show V c main_arg0 (((cfg0.win 0).blk t).view.emb y) = V c main_arg0 (((cfg0.win 4).blk t).view.emb y)
  have h0 : ((cfg0.win 0).blk t).view.emb y = ((cfg0.win 4).blk t).view.emb y := by
    funext a; apply Fin.ext
    match a with
    | ⟨0, _⟩ => show win0_0.index t (0 : Fin 3) * 1 + 1 * (y 0).val = win0_4.index t (0 : Fin 3) * 1 + 1 * (y 0).val; omega
    | ⟨1, _⟩ => show win0_0.index t (1 : Fin 3) * 512 + 1 * (y 1).val = win0_4.index t (1 : Fin 3) * 512 + 1 * (y 1).val; omega
    | ⟨2, _⟩ => show win0_0.index t (2 : Fin 3) * 4096 + 1 * (y 2).val = win0_4.index t (2 : Fin 3) * 4096 + 1 * (y 2).val; omega
  rw [h0]

/-- An index of the array is in point `t`'s block iff each coordinate is in the block's range on its axis. -/
theorem mem_blk0_4 (t : Fin cfg0.N) (i : S2x4096x4096.Idx) :
    i ∈ ((cfg0.win 4).blk t).view.set ↔ ∀ a : Fin 3, win0_4.index t a * S1x512x4096.size a ≤ (i a).val ∧ (i a).val < win0_4.index t a * S1x512x4096.size a + S1x512x4096.size a := by
  show i ∈ ((View.whole main_v6_1).slice (win0_4.rect t)).set ↔ _
  rw [View.set_slice_whole, Rect.mem_set_unit]
  exact Iff.rfl

/-- Row `n` of graph `j` is in the block of the point (j, n / 512). -/
theorem covered0_4 (i : S2x4096x4096.Idx) :
    ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 4096 := (i 2).isLt
  obtain ⟨t, ht⟩ := pointOf0 ⟨(i 0).val, hi0⟩ ⟨(i 1).val / 512, by omega⟩
  have ht' : t.val = (i 0).val * 8 + (i 1).val / 512 := ht
  obtain ⟨-, -, -, -, -, -, -, -, -, -, -, -, a40, a41, a42, -, -⟩ := blockIdx0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 4096 ≤ (i 2).val ∧ (i 2).val < win0_4.index t (2 : Fin 3) * 4096 + 4096; omega

/-! ## The hidden features -/

/-- The result panel against whole arrays: when the adjacency panel of row panel `r` (the point's second coordinate)
    holds rows `r * 512 ..` of graph `j`'s adjacency matrix, and the feature and weight blocks hold graph `j`'s feature
    array and weight matrix, the panel's entry `(p, q)` is the hidden feature `q` of node `r * 512 + p` of graph `j`. -/
theorem out0_3_whole (i : grid0.Coords) (x0 : Vec Ideal S1x512x4096 .f32) (x1 : Vec Ideal S1x4096x512 .f32) (x2 : Vec Ideal S1x512x512 .f32)
    (A : Cert.Spec.Adj) (X : Cert.Spec.Feat) (W : Cert.Spec.WStack) (j : Fin 2)
    (h0 : ∀ (p : Fin 512) (k : Fin 4096) (n : Fin 4096), n.val = (i 1).val * 512 + p.val → x0 (ix3 0 p k) = A (ix3 j n k))
    (h1 : ∀ (k : Fin 4096) (d : Fin 512), x1 (ix3 0 k d) = X (ix3 j k d))
    (h2 : ∀ (k : Fin 512) (q : Fin 512), x2 (ix3 0 k q) = W (ix3 j k q))
    (p q : Fin 512) (n : Fin 4096) (hn : n.val = (i 1).val * 512 + p.val) :
    out0_3 (F := Ideal) i x0 x1 x2 (ix3 0 p q) = Cert.Spec.hid A X W (ix3 j n q) := by
  refine (out0_3_apply i x0 x1 x2 p q n hn).trans ?_
  show _ = max (Cert.Spec.layerAt A X W j n q) Cert.Spec.zero
  unfold Cert.Spec.layerAt Cert.Spec.layer
  simp only [h1, h2, h0 p _ n hn]

/-- The adjacency panel at point `t` holds rows `(t % 8) * 512 ..` of graph `t / 8`'s adjacency matrix. -/
theorem adjPanel0_read (c : Dev nD) (t : Fin cfg0.N) (y : S1x512x4096.Idx) (k : S2x4096x4096.Idx)
    (hk0 : (k 0).val = t.val / 8) (hk1 : (k 1).val = (t.val % 8) * 512 + (y 1).val) (hk2 : (k 2).val = (y 2).val) :
    (iblk0 V c 0 t : Vec Ideal S1x512x4096 .f32) y = (V c main_arg0 : S2x4096x4096.Idx → EReal) k := by
  obtain ⟨a0, a1, a2, -⟩ := blockIdx0 t
  have hy0 : (y 0).val < 1 := (y 0).isLt
  show V c main_arg0 (((cfg0.win 0).blk t).view.emb y) = V c main_arg0 k
  refine congrArg (V c main_arg0) ?_
  funext a; apply Fin.ext
  match a with
  | ⟨0, _⟩ => show win0_0.index t (0 : Fin 3) * 1 + 1 * (y 0).val = (k 0).val; omega
  | ⟨1, _⟩ => show win0_0.index t (1 : Fin 3) * 512 + 1 * (y 1).val = (k 1).val; omega
  | ⟨2, _⟩ => show win0_0.index t (2 : Fin 3) * 4096 + 1 * (y 2).val = (k 2).val; omega

/-- The feature block at point `t` is graph `t / 8`'s whole feature array. -/
theorem featBlock0_read (c : Dev nD) (t : Fin cfg0.N) (y : S1x4096x512.Idx) (k : S2x4096x512.Idx)
    (hk0 : (k 0).val = t.val / 8) (hk1 : (k 1).val = (y 1).val) (hk2 : (k 2).val = (y 2).val) :
    (iblk0 V c 1 t : Vec Ideal S1x4096x512 .f32) y = (V c main_arg1 : S2x4096x512.Idx → EReal) k := by
  obtain ⟨-, -, -, a0, a1, a2, -⟩ := blockIdx0 t
  have hy0 : (y 0).val < 1 := (y 0).isLt
  show V c main_arg1 (((cfg0.win 1).blk t).view.emb y) = V c main_arg1 k
  refine congrArg (V c main_arg1) ?_
  funext a; apply Fin.ext
  match a with
  | ⟨0, _⟩ => show win0_1.index t (0 : Fin 3) * 1 + 1 * (y 0).val = (k 0).val; omega
  | ⟨1, _⟩ => show win0_1.index t (1 : Fin 3) * 4096 + 1 * (y 1).val = (k 1).val; omega
  | ⟨2, _⟩ => show win0_1.index t (2 : Fin 3) * 512 + 1 * (y 2).val = (k 2).val; omega

/-- The weight block at point `t` is graph `t / 8`'s weight matrix. -/
theorem weightBlock0_read (c : Dev nD) (t : Fin cfg0.N) (y : S1x512x512.Idx) (k : S2x512x512.Idx)
    (hk0 : (k 0).val = t.val / 8) (hk1 : (k 1).val = (y 1).val) (hk2 : (k 2).val = (y 2).val) :
    (iblk0 V c 2 t : Vec Ideal S1x512x512 .f32) y = (V c main_v2 : S2x512x512.Idx → EReal) k := by
  obtain ⟨-, -, -, -, -, -, a0, a1, a2, -⟩ := blockIdx0 t
  have hy0 : (y 0).val < 1 := (y 0).isLt
  show V c main_v2 (((cfg0.win 2).blk t).view.emb y) = V c main_v2 k
  refine congrArg (V c main_v2) ?_
  funext a; apply Fin.ext
  match a with
  | ⟨0, _⟩ => show win0_2.index t (0 : Fin 3) * 1 + 1 * (y 0).val = (k 0).val; omega
  | ⟨1, _⟩ => show win0_2.index t (1 : Fin 3) * 512 + 1 * (y 1).val = (k 1).val; omega
  | ⟨2, _⟩ => show win0_2.index t (2 : Fin 3) * 512 + 1 * (y 2).val = (k 2).val; omega

/-- The result panel of point `t` at `y` is the hidden feature at the array index `k` the panel's rectangle puts `y` at. -/
theorem resultPanel0_at (c : Dev nD) (t : Fin cfg0.N) (y : S1x512x512.Idx) (k : S2x4096x512.Idx)
    (hk0 : (k 0).val = t.val / 8) (hk1 : (k 1).val = (t.val % 8) * 512 + (y 1).val) (hk2 : (k 2).val = (y 2).val) :
    out0_3 (F := Ideal) (grid0.coords t) (iblk0 V c 0 t) (iblk0 V c 1 t) (iblk0 V c 2 t) y
      = Cert.Spec.hid (V c main_arg0 : Cert.Spec.Adj) (V c main_arg1 : Cert.Spec.Feat) (V c main_v2 : Cert.Spec.WStack) k := by
  obtain ⟨-, -, -, -, -, -, -, -, -, -, -, -, -, -, -, g0, g1⟩ := blockIdx0 t
  obtain ⟨p, q, rfl⟩ : ∃ (p q : Fin 512), y = ix3 0 p q := ⟨y 1, y 2, (eq_ix3 y).trans (congrArg (fun a : Fin 1 => ix3 a (y 1) (y 2)) (@Subsingleton.elim (Fin 1) _ (y 0) 0))⟩
  obtain ⟨j, n, q', rfl⟩ : ∃ (j : Fin 2) (n : Fin 4096) (q' : Fin 512), k = ix3 j n q' := ⟨k 0, k 1, k 2, eq_ix3 k⟩
  obtain rfl : q' = q := Fin.ext hk2
  have hj : j.val = t.val / 8 := hk0
  have hn : n.val = (t.val % 8) * 512 + p.val := hk1
  refine out0_3_whole (grid0.coords t) (iblk0 V c 0 t) (iblk0 V c 1 t) (iblk0 V c 2 t) _ _ _ j ?_ ?_ ?_ p q' n (by rw [g1]; exact hn)
  · intro p' k' n' hn'
    exact adjPanel0_read V c t (ix3 0 p' k') (ix3 j n' k') hj (by rw [← g1]; exact hn') rfl
  · intro k' d
    exact featBlock0_read V c t (ix3 0 k' d) (ix3 j k' d) hj rfl rfl
  · intro k' q''
    exact weightBlock0_read V c t (ix3 0 k' q'') (ix3 j k' q'') hj rfl rfl

/-- What point `t` writes back of the hidden-features array is its block of the hidden features of the whole graph. -/
theorem flushed0_3_eq (c : Dev nD) (t : Fin cfg0.N) :
    (dat0 (F := Ideal) V c).flushed 3 t
      = ((cfg0.win 3).blk t).view.read (Elt Ideal)
          (Cert.Spec.hid (V c main_arg0 : Cert.Spec.Adj) (V c main_arg1 : Cert.Spec.Feat) (V c main_v2 : Cert.Spec.WStack)) := by
  show (cfg0.win 3).cut (grid0.coords t) ((dat0 V c).after 3 t) = _
  rw [after0_3]
  obtain ⟨-, -, -, -, -, -, -, -, -, a0, a1, a2, -⟩ := blockIdx0 t
  funext y
  have hy0 : (y 0).val < 1 := (y 0).isLt
  refine resultPanel0_at V c t y (((cfg0.win 3).blk t).view.emb y) ?_ ?_ ?_
  · show win0_3.index t (0 : Fin 3) * 1 + 1 * (y 0).val = t.val / 8; omega
  · show win0_3.index t (1 : Fin 3) * 512 + 1 * (y 1).val = (t.val % 8) * 512 + (y 1).val; omega
  · show win0_3.index t (2 : Fin 3) * 512 + 1 * (y 2).val = (y 2).val; omega

/-- An index of the array is in point `t`'s block iff each coordinate is in the block's range on its axis. -/
theorem mem_blk0_3 (t : Fin cfg0.N) (i : S2x4096x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v6_0).slice (win0_3.rect t)).set ↔ _
  rw [View.set_slice_whole, Rect.mem_set_unit]
  exact Iff.rfl

/-- Row `n` of graph `j` is in the block of the point (j, n / 512). -/
theorem covered0_3 (i : S2x4096x512.Idx) :
    ∃ t : Fin cfg0.N, (cfg0.win 3).flush t = true ∧ i ∈ ((cfg0.win 3).blk t).view.set := by
  have hi0 : (i 0).val < 2 := (i 0).isLt
  have hi1 : (i 1).val < 4096 := (i 1).isLt
  have hi2 : (i 2).val < 512 := (i 2).isLt
  obtain ⟨t, ht⟩ := pointOf0 ⟨(i 0).val, hi0⟩ ⟨(i 1).val / 512, by omega⟩
  have ht' : t.val = (i 0).val * 8 + (i 1).val / 512 := ht
  obtain ⟨-, -, -, -, -, -, -, -, -, a0, a1, a2, -⟩ := blockIdx0 t
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- The hidden features: the first launch's result array 0 after the launch. -/
theorem arr0_3 (c : Dev nD) :
    ((dat0 (F := Ideal) V c).arrAt 3 cfg0.N : Cert.Spec.Feat)
      = Cert.Spec.hid (V c main_arg0 : Cert.Spec.Adj) (V c main_arg1 : Cert.Spec.Feat) (V c main_v2 : Cert.Spec.WStack) :=
  (dat0 (F := Ideal) V c).arrAt_eq_of_cover 3
    (Cert.Spec.hid (V c main_arg0 : Cert.Spec.Adj) (V c main_arg1 : Cert.Spec.Feat) (V c main_v2 : Cert.Spec.WStack))
    (fun t _ => flushed0_3_eq V c t) covered0_3

/-- The narrowed adjacency array: the first launch's result array 1 after the launch. -/
theorem arr0_4 (c : Dev nD) :
    ((dat0 (F := Ideal) V c).arrAt 4 cfg0.N : Cert.Spec.Adj) = (V c main_arg0 : Cert.Spec.Adj) :=
  (dat0 (F := Ideal) V c).arrAt_eq_of_cover 4 (V c main_arg0 : S2x4096x4096.Idx → EReal)
    (fun t _ => flushed0_4_eq V c t) covered0_4

end Cert.KernelIdeal.Hand

end
-- ==== Proof.KI.Pay1.lean ====
/-
  What the second launch's body stores, read at an index, over the extended reals.

  The point's contribution at row p and column q is the second layer of graph j (the point's second coordinate) at
  the panel's row p, halved: the adjacency panel's row p against graph j's slab of the hidden features, the hidden
  features of node (panel number) * 1024 + p added back, the mixed row against graph j's weight matrix.  At an even
  point the body leaves the contribution; at an odd point what the buffer held plus the contribution.
-/
import proofs.«112696_g76459007803594_cont_9to1_m_617_25_alg».proof.Proof.KI.Reg1
import proofs.«112696_g76459007803594_cont_9to1_m_617_25_alg».proof.Proof.Spec
import proofs.«112696_g76459007803594_cont_9to1_m_617_25_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-- The first matrix product at `(p, k2)` is the plain sum over the contracted index. -/
theorem mm1_1_apply (l : FVec Ideal S1024x4096 .bf16) (r : FVec Ideal S4096x512 .bf16) (p : Fin 1024) (k2 : Fin 512) :
    matmul dot_S1024x4096_S4096x512_S1024x512_1_0_0_1_n_n none l r (constant (F := Ideal) S1024x512 .f32 0x00000000#32) (ix2 p k2)
      = ∑ k : Fin 4096, l (ix2 p k) * r (ix2 k k2) :=
  (Ideal.matmul_constant_zero_apply _ none l r (ix2 p k2)).trans
    (PlainDot.sum_eq dot_S1024x4096_S4096x512_S1024x512_1_0_0_1_n_n rfl rfl rfl rfl rfl rfl l r p k2)

/-- The second matrix product at `(p, q)` likewise. -/
theorem mm1_2_apply (l : FVec Ideal S1024x512 .bf16) (r : FVec Ideal S512x512 .bf16) (p : Fin 1024) (q : Fin 512) :
    matmul dot_S1024x512_S512x512_S1024x512_1_0_0_1_n_n none l r (constant (F := Ideal) S1024x512 .f32 0x00000000#32) (ix2 p q)
      = ∑ k : Fin 512, l (ix2 p k) * r (ix2 k q) :=
  (Ideal.matmul_constant_zero_apply _ none l r (ix2 p q)).trans
    (PlainDot.sum_eq dot_S1024x512_S512x512_S1024x512_1_0_0_1_n_n rfl rfl rfl rfl rfl rfl l r p q)

/-- The body's value from its four loads, at `(p, q)`. -/
theorem k1_pay1_apply (v0 : Vec Ideal S1x1024x4096 .bf16) (v3 : Vec Ideal S1x4096x512 .bf16) (v9 : Vec Ideal S1x1024x512 .bf16)
    (v19 : Vec Ideal S1x512x512 .f32) (p : Fin 1024) (q : Fin 512) :
    k1_pay1 (F := Ideal) v0 v3 v9 v19 (ix2 p q)
      = (∑ k2 : Fin 512, (Cert.Spec.c9 * (∑ k : Fin 4096, v0 (ix3 0 p k) * v3 (ix3 0 k k2)) + Cert.Spec.c1 * v9 (ix3 0 p k2))
          * v19 (ix3 0 k2 q)) * Cert.Spec.half := by
  unfold k1_pay1
  refine (mulf_apply _ _ _).trans ?_
  refine congrArg (· * Cert.Spec.half) ?_
  refine (mm1_2_apply _ _ p q).trans (Finset.sum_congr rfl fun k2 _ => ?_)
  refine congrArg₂ (· * ·) ?_ ?_
  · show Cert.Spec.c9 * matmul (F := Ideal) dot_S1024x4096_S4096x512_S1024x512_1_0_0_1_n_n none _ _ _ (ix2 p k2)
        + Cert.Spec.c1 * shapeCast (α := Ideal .bf16) S1024x512 v9 shapeCasts_S1x1024x512_S1024x512 (ix2 p k2) = _
    refine congrArg₂ (· + ·) (congrArg (Cert.Spec.c9 * ·) ?_) (congrArg (Cert.Spec.c1 * ·) ?_)
    · refine (mm1_1_apply _ _ p k2).trans (Finset.sum_congr rfl fun k _ => ?_)
      rw [shapeCast_1ab_ab_apply, shapeCast_1ab_ab_apply]
    · exact shapeCast_1ab_ab_apply _ _ p k2
  · exact shapeCast_1ab_ab_apply _ _ k2 q

/-- The whole adjacency panel, read through its rectangle, is the panel. -/
theorem ld_rA1 (x0 : Vec Ideal S1x1024x4096 .bf16) : View.ld x0 rA1 = x0 :=
  View.ld_unit_zero (by funext a; fin_cases a <;> rfl) _ x0

/-- Graph `j`'s slab of the hidden features at `(0, k, d)` is the hidden features at `(j, k, d)`. -/
theorem ld_rH1 (i : grid1.Coords) (x1 : Vec Ideal S2x4096x512 .bf16) (j : Fin 2) (hj : j.val = (i 1).val)
    (k : Fin 4096) (d : Fin 512) :
    View.ld x1 (rH1 i) (ix3 (0 : Fin 1) k d : S1x4096x512.Idx) = x1 (ix3 j k d) := by
  show x1 ((rH1 i).idx (ix3 (0 : Fin 1) k d : S1x4096x512.Idx)) = _
  congr 1
  funext a
  apply Fin.ext
  have h0 : k1_off1 i 0 = (i 1).val := congrFun (k1_off1_eq i) 0
  have h1 : k1_off1 i 1 = 0 := congrFun (k1_off1_eq i) 1
  have h2 : k1_off1 i 2 = 0 := congrFun (k1_off1_eq i) 2
  match a with
  | ⟨0, _⟩ => show k1_off1 i 0 + 1 * 0 = j.val; omega
  | ⟨1, _⟩ => show k1_off1 i 1 + 1 * k.val = k.val; omega
  | ⟨2, _⟩ => show k1_off1 i 2 + 1 * d.val = d.val; omega

/-- The panel's rows of that slab at `(0, p, d)` are the hidden features of node `r`, the panel's row `p` in the whole
    graph. -/
theorem ld_rHr1 (i : grid1.Coords) (x1 : Vec Ideal S2x4096x512 .bf16) (j : Fin 2) (hj : j.val = (i 1).val)
    (p : Fin 1024) (r : Fin 4096) (hr : r.val = (i 0).val * 1024 + p.val) (d : Fin 512) :
    View.ld x1 (rHr1 i) (ix3 (0 : Fin 1) p d : S1x1024x512.Idx) = x1 (ix3 j r d) := by
  show x1 ((rHr1 i).idx (ix3 (0 : Fin 1) p d : S1x1024x512.Idx)) = _
  congr 1
  funext a
  apply Fin.ext
  have h0 : k1_off2 i 0 = (i 1).val := congrFun (k1_off2_eq i) 0
  have h1 : k1_off2 i 1 = 1024 * (i 0).val := congrFun (k1_off2_eq i) 1
  have h2 : k1_off2 i 2 = 0 := congrFun (k1_off2_eq i) 2
  match a with
  | ⟨0, _⟩ => show k1_off2 i 0 + 1 * 0 = j.val; omega
  | ⟨1, _⟩ => show k1_off2 i 1 + 1 * p.val = r.val; omega
  | ⟨2, _⟩ => show k1_off2 i 2 + 1 * d.val = d.val; omega

/-- Graph `j`'s weight matrix in the stack at `(0, k, q)` is the stack at `(j, k, q)`. -/
theorem ld_rW1 (i : grid1.Coords) (x2 : Vec Ideal S2x512x512 .f32) (j : Fin 2) (hj : j.val = (i 1).val)
    (k : Fin 512) (q : Fin 512) :
    View.ld x2 (rW1 i) (ix3 (0 : Fin 1) k q : S1x512x512.Idx) = x2 (ix3 j k q) := by
  show x2 ((rW1 i).idx (ix3 (0 : Fin 1) k q : S1x512x512.Idx)) = _
  congr 1
  funext a
  apply Fin.ext
  have h0 : k1_off3 i 0 = (i 1).val := congrFun (k1_off3_eq i) 0
  have h1 : k1_off3 i 1 = 0 := congrFun (k1_off3_eq i) 1
  have h2 : k1_off3 i 2 = 0 := congrFun (k1_off3_eq i) 2
  match a with
  | ⟨0, _⟩ => show k1_off3 i 0 + 1 * 0 = j.val; omega
  | ⟨1, _⟩ => show k1_off3 i 1 + 1 * k.val = k.val; omega
  | ⟨2, _⟩ => show k1_off3 i 2 + 1 * q.val = q.val; omega

/-- The contribution at `(p, q)`, for the graph `j` and the node `r` the point's coordinates name. -/
theorem contrib1_apply (i : grid1.Coords) (x0 : Vec Ideal S1x1024x4096 .bf16) (x1 : Vec Ideal S2x4096x512 .bf16) (x2 : Vec Ideal S2x512x512 .f32)
    (p : Fin 1024) (q : Fin 512) (j : Fin 2) (hj : j.val = (i 1).val) (r : Fin 4096) (hr : r.val = (i 0).val * 1024 + p.val) :
    contrib1 (F := Ideal) i x0 x1 x2 (ix2 p q)
      = Cert.Spec.layer (fun p k => x0 (ix3 0 p k)) (fun k d => x1 (ix3 j k d)) (fun _ d => x1 (ix3 j r d)) (fun k q => x2 (ix3 j k q)) p q
          * Cert.Spec.half := by
  unfold contrib1
  refine (k1_pay1_apply _ _ _ _ p q).trans ?_
  unfold Cert.Spec.layer
  refine congrArg (· * Cert.Spec.half) (Finset.sum_congr rfl fun k2 _ => ?_)
  refine congrArg₂ (· * ·) (congrArg₂ (· + ·) (congrArg (Cert.Spec.c9 * ·) (Finset.sum_congr rfl fun k _ => ?_))
    (congrArg (Cert.Spec.c1 * ·) ?_)) ?_
  · exact congrArg₂ (· * ·) (congrFun (ld_rA1 x0) _) (ld_rH1 i x1 j hj k k2)
  · exact ld_rHr1 i x1 j hj p r hr k2
  · exact ld_rW1 i x2 j hj k2 q

/-- Where the first branch is taken the buffer is left at the contribution. -/
theorem out1_A_3_apply (i : grid1.Coords) (x0 : Vec Ideal S1x1024x4096 .bf16) (x1 : Vec Ideal S2x4096x512 .bf16) (x2 : Vec Ideal S2x512x512 .f32)
    (y : S1024x512.Idx) :
    out1_A_3 (F := Ideal) i x0 x1 x2 y = contrib1 (F := Ideal) i x0 x1 x2 y := by
  unfold out1_A_3
  rw [View.canon_unit_zero (by funext a; fin_cases a <;> rfl)]

/-- Where the second branch is taken the buffer is left at what it held plus the contribution. -/
theorem out1_B_3_apply (i : grid1.Coords) (x0 : Vec Ideal S1x1024x4096 .bf16) (x1 : Vec Ideal S2x4096x512 .bf16) (x2 : Vec Ideal S2x512x512 .f32)
    (xo : Vec Ideal S1024x512 .f32) (y : S1024x512.Idx) :
    out1_B_3 (F := Ideal) i x0 x1 x2 xo y = xo y + contrib1 (F := Ideal) i x0 x1 x2 y := by
  unfold out1_B_3
  rw [View.canon_unit_zero (by funext a; fin_cases a <;> rfl)]
  unfold k1_pay2 contrib1
  rw [View.ld_unit_zero (by funext a; fin_cases a <;> rfl), shapeCast_self]
  rfl

end Cert.KernelIdeal.Hand

end
-- ==== Proof.KI.Val1.lean ====
/-
  What the second launch leaves in its result array, over the extended reals, at any entry contents `V`.

  The grid point t = (panel r, graph j) has position 2*r + j.  After the even point of a panel the output buffer holds
  graph 0's halved second layer for the panel's 1024 rows; after the odd point, that plus graph 1's; only the odd
  point writes the block back, as block r of the result.  So every written block is the restriction of one
  whole-array function, and the four blocks cover the 4096 rows (row n is in block n / 1024).
-/
import proofs.«112696_g76459007803594_cont_9to1_m_617_25_alg».proof.Proof.KI.Pay1
import proofs.«112696_g76459007803594_cont_9to1_m_617_25_alg».proof.Proof.Spec
import proofs.«112696_g76459007803594_cont_9to1_m_617_25_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The points' coordinates and the windows' block indices -/

/-- Point t is (panel t / 2, graph t % 2); the adjacency window's block index is (graph, panel, 0), the two resident
    windows' is zero, the result window's is (panel, 0).  Decided over the eight points. -/
theorem pt1_facts : ∀ t : Fin cfg1.N,
    ((grid1.coords t 0).val = t.val / 2 ∧ (grid1.coords t 1).val = t.val % 2)
    ∧ (win1_0.index t (0 : Fin 3) = t.val % 2 ∧ win1_0.index t (1 : Fin 3) = t.val / 2 ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 2) = t.val / 2 ∧ win1_3.index t (1 : Fin 2) = 0) :=
  (by decide +kernel : ∀ t : Fin grid1.N, _)

/-! ## The input blocks, read off the arrays -/

/-- Row p of the adjacency panel at point t is row (t / 2) * 1024 + p of graph t % 2. -/
theorem panel1_apply (c : Dev nD) (t : Fin cfg1.N) (p : Fin 1024) (k : Fin 4096) (j : Fin 2) (n : Fin 4096)
    (hj : j.val = t.val % 2) (hn : n.val = t.val / 2 * 1024 + p.val) :
    (iblk1 (F := Ideal) V c 0 t : Vec Ideal S1x1024x4096 .bf16) (ix3 0 p k) = (V c main_v6_1 : Cert.Spec.Adj) (ix3 j n k) := by
  obtain ⟨-, ⟨e0, e1, e2⟩, -⟩ := pt1_facts t
  unfold iblk1
  rw [View.read_apply]
  show V c main_v6_1 _ = V c main_v6_1 _
  congr 1
  funext a
  apply Fin.ext
  match a with
  | ⟨0, _⟩ => show win1_0.index t (0 : Fin 3) * 1 + 1 * 0 = j.val; omega
  | ⟨1, _⟩ => show win1_0.index t (1 : Fin 3) * 1024 + 1 * p.val = n.val; omega
  | ⟨2, _⟩ => show win1_0.index t (2 : Fin 3) * 4096 + 1 * k.val = k.val; omega

/-- The resident block of hidden features is the whole array. -/
theorem feat1_eq (c : Dev nD) (t : Fin cfg1.N) :
    (iblk1 (F := Ideal) V c 1 t : Vec Ideal S2x4096x512 .bf16) = (V c main_v6_0 : Cert.Spec.Feat) := by
  obtain ⟨-, -, ⟨e0, e1, e2⟩, -⟩ := pt1_facts t
  funext y
  unfold iblk1
  rw [View.read_apply]
  show V c main_v6_0 _ = V c main_v6_0 _
  congr 1
  funext a
  apply Fin.ext
  match a with
  | ⟨0, _⟩ => show win1_1.index t (0 : Fin 3) * 2 + 1 * (y 0).val = (y 0).val; omega
  | ⟨1, _⟩ => show win1_1.index t (1 : Fin 3) * 4096 + 1 * (y 1).val = (y 1).val; omega
  | ⟨2, _⟩ => show win1_1.index t (2 : Fin 3) * 512 + 1 * (y 2).val = (y 2).val; omega

/-- The resident block of weight matrices is the whole stack. -/
theorem wts1_eq (c : Dev nD) (t : Fin cfg1.N) :
    (iblk1 (F := Ideal) V c 2 t : Vec Ideal S2x512x512 .f32) = (V c main_v5 : Cert.Spec.WStack) := by
  obtain ⟨-, -, -, ⟨e0, e1, e2⟩, -⟩ := pt1_facts t
  funext y
  unfold iblk1
  rw [View.read_apply]
  show V c main_v5 _ = V c main_v5 _
  congr 1
  funext a
  apply Fin.ext
  match a with
  | ⟨0, _⟩ => show win1_2.index t (0 : Fin 3) * 2 + 1 * (y 0).val = (y 0).val; omega
  | ⟨1, _⟩ => show win1_2.index t (1 : Fin 3) * 512 + 1 * (y 1).val = (y 1).val; omega
  | ⟨2, _⟩ => show win1_2.index t (2 : Fin 3) * 512 + 1 * (y 2).val = (y 2).val; omega

/-! ## A point's contribution is a graph's halved second layer -/

/-- Over any blocks: when the panel's row p is row n of graph j of the adjacency array, and the resident blocks are
    the whole arrays, the contribution at (p, q) is graph j's second layer at (n, q), halved. -/
theorem contrib1_layerAt (i : grid1.Coords) (x0 : Vec Ideal S1x1024x4096 .bf16) (x1 : Vec Ideal S2x4096x512 .bf16)
    (x2 : Vec Ideal S2x512x512 .f32) (adj : Cert.Spec.Adj) (feat : Cert.Spec.Feat) (wts : Cert.Spec.WStack)
    (p : Fin 1024) (q : Fin 512) (j : Fin 2) (hj : j.val = (i 1).val) (n : Fin 4096) (hn : n.val = (i 0).val * 1024 + p.val)
    (h0 : ∀ k : Fin 4096, x0 (ix3 0 p k) = adj (ix3 j n k)) (h1 : x1 = feat) (h2 : x2 = wts) :
    contrib1 (F := Ideal) i x0 x1 x2 (ix2 p q) = Cert.Spec.layerAt adj feat wts j n q * Cert.Spec.half := by
  subst h1 h2
  rw [contrib1_apply i x0 x1 x2 p q j hj n hn]
  unfold Cert.Spec.layerAt Cert.Spec.layer
  simp only [h0]

/-! ## What the output buffer holds after an odd point -/

/-- The point before `t`. -/
def prev1 (t : Fin cfg1.N) : Fin cfg1.N := ⟨t.val - 1, Nat.lt_of_le_of_lt (Nat.sub_le _ _) t.isLt⟩

/-- After the odd point t the buffer holds the contribution of the point before (the panel's graph 0) plus the point's
    own (graph 1). -/
theorem outsAt1_odd (c : Dev nD) (t : Fin cfg1.N) (ht : t.val % 2 = 1) (y : S1024x512.Idx) :
    outsAt1 (F := Ideal) V c t.val t.isLt y
      = contrib1 (F := Ideal) (grid1.coords (prev1 t)) (iblk1 V c 0 (prev1 t)) (iblk1 V c 1 (prev1 t)) (iblk1 V c 2 (prev1 t)) y
        + contrib1 (F := Ideal) (grid1.coords t) (iblk1 V c 0 t) (iblk1 V c 1 t) (iblk1 V c 2 t) y := by
  have hN : t.val < 8 := lt_of_lt_of_eq t.isLt (show cfg1.N = 8 from N_1)
  rw [outsAt1_B V c t (by omega)]
  refine (out1_B_3_apply (grid1.coords t) (iblk1 V c 0 t) (iblk1 V c 1 t) (iblk1 V c 2 t) _ y).trans ?_
  refine congrArg₂ (· + ·) ?_ rfl
  have hA := outsAt1_A V c (prev1 t) (by show (t.val - 1) % 2 = 0; omega)
  exact (congrFun hA y).trans
    (out1_A_3_apply (grid1.coords (prev1 t)) (iblk1 V c 0 (prev1 t)) (iblk1 V c 1 (prev1 t)) (iblk1 V c 2 (prev1 t)) y)

/-- So at row p and column q it holds the result at node (t / 2) * 1024 + p and column q. -/
theorem outsAt1_res (c : Dev nD) (t : Fin cfg1.N) (ht : t.val % 2 = 1) (p : Fin 1024) (q : Fin 512) (n : Fin 4096)
    (hn : n.val = t.val / 2 * 1024 + p.val) :
    outsAt1 (F := Ideal) V c t.val t.isLt (ix2 p q)
      = Cert.Spec.res (V c main_v6_1 : Cert.Spec.Adj) (V c main_v6_0 : Cert.Spec.Feat) (V c main_v5 : Cert.Spec.WStack) (ix2 n q) := by
  have hN : t.val < 8 := lt_of_lt_of_eq t.isLt (show cfg1.N = 8 from N_1)
  obtain ⟨⟨c0, c1⟩, -⟩ := pt1_facts t
  obtain ⟨⟨d0, d1⟩, -⟩ := pt1_facts (prev1 t)
  have hp : (prev1 t).val = t.val - 1 := rfl
  rw [outsAt1_odd V c t ht (ix2 p q)]
  show _ = Cert.Spec.layerAt _ _ _ 0 n q * Cert.Spec.half + Cert.Spec.layerAt _ _ _ 1 n q * Cert.Spec.half
  refine congrArg₂ (· + ·) ?_ ?_
  · exact contrib1_layerAt (grid1.coords (prev1 t)) (iblk1 V c 0 (prev1 t)) (iblk1 V c 1 (prev1 t)) (iblk1 V c 2 (prev1 t))
      (V c main_v6_1) (V c main_v6_0) (V c main_v5) p q 0 (by rw [d1, hp]; show 0 = (t.val - 1) % 2; omega)
      n (by rw [d0, hp, hn]; omega)
      (fun k => panel1_apply V c (prev1 t) p k 0 n (by rw [hp]; show 0 = (t.val - 1) % 2; omega) (by rw [hp, hn]; omega))
      (feat1_eq V c (prev1 t)) (wts1_eq V c (prev1 t))
  · exact contrib1_layerAt (grid1.coords t) (iblk1 V c 0 t) (iblk1 V c 1 t) (iblk1 V c 2 t)
      (V c main_v6_1) (V c main_v6_0) (V c main_v5) p q 1 (by rw [c1]; show 1 = t.val % 2; omega)
      n (by rw [c0, hn])
      (fun k => panel1_apply V c t p k 1 n (by show 1 = t.val % 2; omega) hn)
      (feat1_eq V c t) (wts1_eq V c t)

/-- The same over any index of the buffer and the index of the array it is written to. -/
theorem outsAt1_res_idx (c : Dev nD) (t : Fin cfg1.N) (ht : t.val % 2 = 1) (y : S1024x512.Idx) (i : S4096x512.Idx)
    (hi0 : (i 0).val = t.val / 2 * 1024 + (y 0).val) (hi1 : (i 1).val = (y 1).val) :
    outsAt1 (F := Ideal) V c t.val t.isLt y
      = Cert.Spec.res (V c main_v6_1 : Cert.Spec.Adj) (V c main_v6_0 : Cert.Spec.Feat) (V c main_v5 : Cert.Spec.WStack) i := by
  obtain ⟨p, q, rfl⟩ : ∃ (p : Fin 1024) (q : Fin 512), y = ix2 p q := ⟨y 0, y 1, eq_ix2 y⟩
  obtain ⟨n, m, rfl⟩ : ∃ (n : Fin 4096) (m : Fin 512), i = ix2 n m := ⟨i 0, i 1, eq_ix2 i⟩
  obtain rfl : q = m := (Fin.ext hi1).symm
  exact outsAt1_res V c t ht p q n hi0

/-! ## From the blocks to the array -/

/-- What an odd point writes back is its block of the result. -/
theorem flushed1_3_eq (c : Dev nD) (t : Fin cfg1.N) (hf : (cfg1.win 3).flush t = true) :
    (dat1 (F := Ideal) V c).flushed 3 t
      = ((cfg1.win 3).blk t).view.read (Elt Ideal)
          (Cert.Spec.res (V c main_v6_1 : Cert.Spec.Adj) (V c main_v6_0 : Cert.Spec.Feat) (V c main_v5 : Cert.Spec.WStack)) := by
  have ht : t.val % 2 = 1 := (flush1_3 t).mp hf
  obtain ⟨-, -, -, -, ⟨e0, e1⟩⟩ := pt1_facts t
  show (cfg1.win 3).cut (grid1.coords t) ((dat1 (F := Ideal) V c).after 3 t) = _
  rw [after1_3]
  funext y
  show outsAt1 (F := Ideal) V c t.val t.isLt ((cfg1.win 3).xinj (grid1.coords t) y)
    = Cert.Spec.res (V c main_v6_1 : Cert.Spec.Adj) (V c main_v6_0 : Cert.Spec.Feat) (V c main_v5 : Cert.Spec.WStack)
        (((cfg1.win 3).blk t).view.emb y)
  refine outsAt1_res_idx V c t ht _ _ ?_ ?_
  · show win1_3.index t (0 : Fin 2) * 1024 + 1 * (y 0).val = t.val / 2 * 1024 + (y 0).val; omega
  · show win1_3.index t (1 : Fin 2) * 512 + 1 * (y 1).val = (y 1).val; omega

/-- An index of the result array is in point `t`'s block iff each coordinate is in the block's range on its axis. -/
theorem mem_blk1_3 (t : Fin cfg1.N) (i : S4096x512.Idx) :
    i ∈ ((cfg1.win 3).blk t).view.set
      ↔ ∀ a : Fin 2, win1_3.index t a * S1024x512.size a ≤ (i a).val ∧ (i a).val < win1_3.index t a * S1024x512.size a + S1024x512.size a := by
  show i ∈ ((View.whole main_v7).slice (win1_3.rect t)).set ↔ _
  rw [View.set_slice_whole, Rect.mem_set_unit]
  exact Iff.rfl

/-- Row n of the result is in the block the odd point of panel n / 1024 writes back. -/
theorem covered1_3 (i : S4096x512.Idx) :
    ∃ t : Fin cfg1.N, (cfg1.win 3).flush t = true ∧ i ∈ ((cfg1.win 3).blk t).view.set := by
  have hi0 : (i 0).val < 4096 := (i 0).isLt
  have hi1 : (i 1).val < 512 := (i 1).isLt
  have hN : cfg1.N = 8 := N_1
  obtain ⟨t, htv⟩ : ∃ t : Fin cfg1.N, t.val = 2 * ((i 0).val / 1024) + 1 := ⟨⟨2 * ((i 0).val / 1024) + 1, by rw [hN]; omega⟩, rfl⟩
  obtain ⟨-, -, -, -, ⟨e0, e1⟩⟩ := pt1_facts t
  refine ⟨t, (flush1_3 t).mpr (by rw [htv]; omega), ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The result: the second launch's result array after the launch, from the arrays the launch finds. -/
theorem arr1_3 (c : Dev nD) :
    ((dat1 (F := Ideal) V c).arrAt 3 cfg1.N : Cert.Spec.Res)
      = Cert.Spec.res (V c main_v6_1 : Cert.Spec.Adj) (V c main_v6_0 : Cert.Spec.Feat) (V c main_v5 : Cert.Spec.WStack) :=
  (dat1 (F := Ideal) V c).arrAt_eq_of_cover 3
    (Cert.Spec.res (V c main_v6_1 : Cert.Spec.Adj) (V c main_v6_0 : Cert.Spec.Feat) (V c main_v5 : Cert.Spec.WStack))
    (fun t hf => flushed1_3_eq V c t hf) covered1_3

end Cert.KernelIdeal.Hand

end
-- ==== Proof.KI.Glue.lean ====
/-
  The program's result as the network of its arguments, over the extended reals.

  The host operations stack each layer's two weight matrices along a new leading axis; the first launch finds the
  two array arguments as launched and the first stack, and leaves the hidden features and the narrowed adjacency
  array; the second launch finds those two and the second stack, and leaves the result.
-/
import proofs.«112696_g76459007803594_cont_9to1_m_617_25_alg».proof.Proof.KI.Run
import proofs.«112696_g76459007803594_cont_9to1_m_617_25_alg».proof.Proof.KI.Val0
import proofs.«112696_g76459007803594_cont_9to1_m_617_25_alg».proof.Proof.KI.Val1
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- Two matrices, each given a new leading unit axis and joined along it, are the stack: the entry (j, p, q) is the
    first matrix at (p, q) for j = 0 and the second for j = 1. -/
theorem stack_eq (a b : Cert.Spec.Wt) :
    (concatenate S2x512x512 0 [⟨S1x512x512, broadcastInDim S1x512x512 ![1, 2] bcast_S512x512_S1x512x512_1_2 a⟩,
        ⟨S1x512x512, broadcastInDim S1x512x512 ![1, 2] bcast_S512x512_S1x512x512_1_2 b⟩]
        concatenates_S1x512x512_S1x512x512_S2x512x512_d0 : Cert.Spec.WStack)
      = Cert.Spec.stack a b := by
  funext i
  obtain ⟨j, p, q, rfl⟩ : ∃ (j : Fin 2) (p q : Fin 512), i = ix3 j p q := ⟨i 0, i 1, i 2, eq_ix3 i⟩
  unfold Cert.Spec.stack
  by_cases hj : j.val = 0
  · rw [if_pos (show ((ix3 j p q : (⟨3, ![2, 512, 512]⟩ : Shape).Idx) 0).val = 0 from hj)]
    refine (concatenate_pair_apply_left (t := S2x512x512) (s₁ := S1x512x512) (s₂ := S1x512x512) (0 : Fin 3) _ _ _ (ix3 j p q) rfl (ix3 (0 : Fin 1) p q) ?_).trans ?_
    · intro b
      match b with
      | ⟨0, _⟩ => exact hj.symm
      | ⟨1, _⟩ => rfl
      | ⟨2, _⟩ => rfl
    · exact broadcastInDim_apply _ _ a (ix3 (0 : Fin 1) p q) (ix2 p q) (fun a => match a with | ⟨0, _⟩ => rfl | ⟨1, _⟩ => rfl)
  · have hj1 : j.val = 1 := by have := j.isLt; omega
    rw [if_neg (show ¬ ((ix3 j p q : (⟨3, ![2, 512, 512]⟩ : Shape).Idx) 0).val = 0 from hj)]
    refine (concatenate_pair_apply_right (t := S2x512x512) (s₁ := S1x512x512) (s₂ := S1x512x512) (0 : Fin 3) _ _ _ (ix3 j p q) rfl rfl (ix3 (0 : Fin 1) p q) ?_ ?_).trans ?_
    · intro b hb
      match b with
      | ⟨0, _⟩ => exact absurd rfl hb
      | ⟨1, _⟩ => rfl
      | ⟨2, _⟩ => rfl
    · show 0 + 1 = j.val
      omega
    · exact broadcastInDim_apply _ _ b (ix3 (0 : Fin 1) p q) (ix2 p q) (fun a => match a with | ⟨0, _⟩ => rfl | ⟨1, _⟩ => rfl)

/-- The first launch finds the first layer's two weight matrices stacked. -/
theorem E1_main_v2 (c : Dev nD) :
    (E1 (F := Ideal) m ρ c main_v2 : Cert.Spec.WStack)
      = Cert.Spec.stack (m ((c : Thread nD τ).loc main_arg2)) (m ((c : Thread nD τ).loc main_arg3)) := by
  refine Eq.trans ?_ (stack_eq _ _)
  show StableHlo.after hostOps0 (B0 m ρ c) (Proc.devRef .tc main_v2) = _
  after_results

/-- The host operations leave the second layer's two weight matrices stacked. -/
theorem E1_main_v5 (c : Dev nD) :
    (E1 (F := Ideal) m ρ c main_v5 : Cert.Spec.WStack)
      = Cert.Spec.stack (m ((c : Thread nD τ).loc main_arg4)) (m ((c : Thread nD τ).loc main_arg5)) := by
  refine Eq.trans ?_ (stack_eq _ _)
  show StableHlo.after hostOps0 (B0 m ρ c) (Proc.devRef .tc main_v5) = _
  after_results

/-- The result buffer's final contents are the network of the six arguments. -/
theorem result_net (c : Dev nD) :
    ((dat1 (F := Ideal) (E2 m ρ) c).arrAt 3 cfg1.N : Cert.Spec.Res)
      = Cert.Spec.net (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have h1 : (E2 (F := Ideal) m ρ c main_v6_1 : Cert.Spec.Adj) = m ((c : Thread nD τ).loc main_arg0) :=
    (E2_main_v6_1 m ρ c).trans ((arr0_4 (E1 m ρ) c).trans (E1_main_arg0 m ρ c))
  have h0 : (E2 (F := Ideal) m ρ c main_v6_0 : Cert.Spec.Feat)
      = Cert.Spec.hid (m ((c : Thread nD τ).loc main_arg0)) (m ((c : Thread nD τ).loc main_arg1))
          (Cert.Spec.stack (m ((c : Thread nD τ).loc main_arg2)) (m ((c : Thread nD τ).loc main_arg3))) := by
    refine (E2_main_v6_0 m ρ c).trans ((arr0_3 (E1 m ρ) c).trans ?_)
    rw [E1_main_v2 m ρ c]
    exact congrArg₂ (fun a x => Cert.Spec.hid a x _) (E1_main_arg0 m ρ c) (E1_main_arg1 m ρ c)
  have h5 : (E2 (F := Ideal) m ρ c main_v5 : Cert.Spec.WStack)
      = Cert.Spec.stack (m ((c : Thread nD τ).loc main_arg4)) (m ((c : Thread nD τ).loc main_arg5)) :=
    (E2_main_v5 m ρ c).trans (E1_main_v5 m ρ c)
  refine (arr1_3 (E2 m ρ) c).trans ?_
  unfold Cert.Spec.net
  rw [h1, h0, h5]

end Cert.KernelIdeal.Hand

end
-- ==== Proof.RefNet.lean ====
/-
  The reference computes the network: its last operation's value, as a function of the six arguments, is
  `Cert.Spec.net` of them.  Each graph's two layers are read one operation at a time: a slice and a reshape pick the
  graph's adjacency matrix and features, the matrix products are plain sums over the contracted index, the mix and
  the clip are pointwise; the final "add onto zero, add, divide by two" is the halved sum.
-/
import proofs.«112696_g76459007803594_cont_9to1_m_617_25_alg».proof.Proof.Gen.ReferenceIdeal.Run
import proofs.«112696_g76459007803594_cont_9to1_m_617_25_alg».proof.Proof.Gen.ReferenceIdeal.Read
import proofs.«112696_g76459007803594_cont_9to1_m_617_25_alg».proof.Proof.Spec
import Idealize.ShloMosaic.Lib.ValueIdx
import Idealize.ShloMosaic.PureOps.Ideal.Laws

set_option maxRecDepth 16384

noncomputable section

namespace Cert.ReferenceIdeal.RefNet

open Idealize.ShloMosaic Idealize.ShloMosaic.ValueIdx
open Cert.ReferenceIdeal Cert.ReferenceIdeal.Gen Cert.ReferenceIdeal.Read

/-! ## The slices: a graph's features and adjacency matrix -/

/-- Graph 0's features: the reshape of the slice reads the argument at (0, r, d). -/
theorem v1_at (x1 : Cert.Spec.Feat) (r : Fin 4096) (d : Fin 512) :
    val_main_v1 (F := Ideal) x1 (ix2 r d) = x1 (ix3 0 r d) := by
  rw [val_main_v1_apply, val_main_v0_apply]
  congr 1
  funext a
  apply Fin.ext
  match a with
  | ⟨0, _⟩ => rfl
  | ⟨1, _⟩ => show (r.val * 512 + d.val) / 512 % 4096 = r.val; have := r.isLt; have := d.isLt; omega
  | ⟨2, _⟩ => show (r.val * 512 + d.val) % 512 = d.val; have := d.isLt; omega

/-- Graph 1's features. -/
theorem v3_at (x1 : Cert.Spec.Feat) (r : Fin 4096) (d : Fin 512) :
    val_main_v3 (F := Ideal) x1 (ix2 r d) = x1 (ix3 1 r d) := by
  rw [val_main_v3_apply, val_main_v2_apply]
  congr 1
  funext a
  apply Fin.ext
  match a with
  | ⟨0, _⟩ => rfl
  | ⟨1, _⟩ => show (r.val * 512 + d.val) / 512 % 4096 = r.val; have := r.isLt; have := d.isLt; omega
  | ⟨2, _⟩ => show (r.val * 512 + d.val) % 512 = d.val; have := d.isLt; omega

/-- Graph 0's adjacency matrix. -/
theorem v5_at (x0 : Cert.Spec.Adj) (r k : Fin 4096) :
    val_main_v5 (F := Ideal) x0 (ix2 r k) = x0 (ix3 0 r k) := by
  rw [val_main_v5_apply, val_main_v4_apply]
  congr 1
  funext a
  apply Fin.ext
  match a with
  | ⟨0, _⟩ => rfl
  | ⟨1, _⟩ => show (r.val * 4096 + k.val) / 4096 % 4096 = r.val; have := r.isLt; have := k.isLt; omega
  | ⟨2, _⟩ => show (r.val * 4096 + k.val) % 4096 = k.val; have := k.isLt; omega

/-- Graph 1's adjacency matrix. -/
theorem v14_at (x0 : Cert.Spec.Adj) (r k : Fin 4096) :
    val_main_v14 (F := Ideal) x0 (ix2 r k) = x0 (ix3 1 r k) := by
  rw [val_main_v14_apply, val_main_v13_apply]
  congr 1
  funext a
  apply Fin.ext
  match a with
  | ⟨0, _⟩ => rfl
  | ⟨1, _⟩ => show (r.val * 4096 + k.val) / 4096 % 4096 = r.val; have := r.isLt; have := k.isLt; omega
  | ⟨2, _⟩ => show (r.val * 4096 + k.val) % 4096 = k.val; have := k.isLt; omega

/-! ## The index functions of the matrix products, at coordinates -/

/-- A product with the adjacency matrix reads its left operand at (r, k) … -/
theorem lidx_adj (r : Fin 4096) (d : Fin 512) (k : Fin 4096) : lidx_main_v6 (ix2 r d) k = ix2 r k :=
  funext fun a => Fin.ext (by match a with | ⟨0, _⟩ => rfl | ⟨1, _⟩ => rfl)
/-- … and its right operand at (k, d). -/
theorem ridx_adj (r : Fin 4096) (d : Fin 512) (k : Fin 4096) : ridx_main_v6 (ix2 r d) k = ix2 k d :=
  funext fun a => Fin.ext (by match a with | ⟨0, _⟩ => rfl | ⟨1, _⟩ => rfl)
/-- A product with a weight matrix reads its left operand at (r, k) … -/
theorem lidx_wt (r : Fin 4096) (q : Fin 512) (k : Fin 512) : lidx_main_v12 (ix2 r q) k = ix2 r k :=
  funext fun a => Fin.ext (by match a with | ⟨0, _⟩ => rfl | ⟨1, _⟩ => rfl)
/-- … and its right operand at (k, q). -/
theorem ridx_wt (r : Fin 4096) (q : Fin 512) (k : Fin 512) : ridx_main_v12 (ix2 r q) k = ix2 k q :=
  funext fun a => Fin.ext (by match a with | ⟨0, _⟩ => rfl | ⟨1, _⟩ => rfl)

/-! ## The first layer -/

/-- Graph 0, first layer: the mix of the propagated and the own features. -/
theorem v11_at (x0 : Cert.Spec.Adj) (x1 : Cert.Spec.Feat) (r : Fin 4096) (d : Fin 512) :
    val_main_v11 (F := Ideal) x0 x1 (ix2 r d) =
      Cert.Spec.c9 * (∑ k : Fin 4096, x0 (ix3 0 r k) * x1 (ix3 0 k d)) + Cert.Spec.c1 * x1 (ix3 0 r d) := by
  rw [val_main_v11_apply, val_main_v8_apply, val_main_v10_apply, val_main_v7_apply, val_main_cst_apply,
    val_main_v9_apply, val_main_cst_0_apply, val_main_v6_apply, v1_at]
  simp only [Ideal.mulf_def, Ideal.addf_def, Ideal.ofBits_def]
  refine congrArg (fun s => Cert.Spec.c9 * s + Cert.Spec.c1 * x1 (ix3 0 r d)) (Finset.sum_congr rfl fun k _ => ?_)
  rw [lidx_adj, ridx_adj, v5_at, v1_at]

/-- Graph 0, first layer. -/
theorem v12_at (x0 : Cert.Spec.Adj) (x1 : Cert.Spec.Feat) (x2 x3 : Cert.Spec.Wt) (r : Fin 4096) (q : Fin 512) :
    val_main_v12 (F := Ideal) x0 x1 x2 (ix2 r q) = Cert.Spec.layerAt x0 x1 (Cert.Spec.stack x2 x3) 0 r q := by
  rw [val_main_v12_apply]
  unfold Cert.Spec.layerAt Cert.Spec.layer
  refine Finset.sum_congr rfl fun k _ => ?_
  rw [lidx_wt, ridx_wt, v11_at]
  rfl

/-- Graph 1, first layer: the mix of the propagated and the own features. -/
theorem v20_at (x0 : Cert.Spec.Adj) (x1 : Cert.Spec.Feat) (r : Fin 4096) (d : Fin 512) :
    val_main_v20 (F := Ideal) x0 x1 (ix2 r d) =
      Cert.Spec.c9 * (∑ k : Fin 4096, x0 (ix3 1 r k) * x1 (ix3 1 k d)) + Cert.Spec.c1 * x1 (ix3 1 r d) := by
  rw [val_main_v20_apply, val_main_v17_apply, val_main_v19_apply, val_main_v16_apply, val_main_cst_1_apply,
    val_main_v18_apply, val_main_cst_2_apply, val_main_v15_apply, v3_at]
  simp only [Ideal.mulf_def, Ideal.addf_def, Ideal.ofBits_def]
  refine congrArg (fun s => Cert.Spec.c9 * s + Cert.Spec.c1 * x1 (ix3 1 r d)) (Finset.sum_congr rfl fun k _ => ?_)
  rw [show lidx_main_v15 (ix2 r d) k = ix2 r k from lidx_adj r d k,
    show ridx_main_v15 (ix2 r d) k = ix2 k d from ridx_adj r d k, v14_at, v3_at]

/-- Graph 1, first layer. -/
theorem v21_at (x0 : Cert.Spec.Adj) (x1 : Cert.Spec.Feat) (x2 x3 : Cert.Spec.Wt) (r : Fin 4096) (q : Fin 512) :
    val_main_v21 (F := Ideal) x0 x1 x3 (ix2 r q) = Cert.Spec.layerAt x0 x1 (Cert.Spec.stack x2 x3) 1 r q := by
  rw [val_main_v21_apply]
  unfold Cert.Spec.layerAt Cert.Spec.layer
  refine Finset.sum_congr rfl fun k _ => ?_
  rw [show lidx_main_v21 (ix2 r q) k = ix2 r k from lidx_wt r q k,
    show ridx_main_v21 (ix2 r q) k = ix2 k q from ridx_wt r q k, v20_at]
  rfl

/-! ## The clip: the hidden features -/

/-- Graph 0's hidden features. -/
theorem v22_at (x0 : Cert.Spec.Adj) (x1 : Cert.Spec.Feat) (x2 x3 : Cert.Spec.Wt) (k : Fin 4096) (d : Fin 512) :
    val_main_v22 (F := Ideal) x0 x1 x2 (ix2 k d) = Cert.Spec.hid x0 x1 (Cert.Spec.stack x2 x3) (ix3 0 k d) := by
  rw [val_main_v22_apply, val_main_call0_v0_apply, val_main_call0_cst_apply, v12_at x0 x1 x2 x3]
  rfl

/-- Graph 1's hidden features. -/
theorem v23_at (x0 : Cert.Spec.Adj) (x1 : Cert.Spec.Feat) (x2 x3 : Cert.Spec.Wt) (k : Fin 4096) (d : Fin 512) :
    val_main_v23 (F := Ideal) x0 x1 x3 (ix2 k d) = Cert.Spec.hid x0 x1 (Cert.Spec.stack x2 x3) (ix3 1 k d) := by
  rw [val_main_v23_apply, val_main_call1_v0_apply, val_main_call1_cst_apply, v21_at x0 x1 x2 x3]
  rfl

/-! ## The second layer -/

/-- Graph 0's adjacency matrix, sliced again for the second layer. -/
theorem v25_at (x0 : Cert.Spec.Adj) (r k : Fin 4096) :
    val_main_v25 (F := Ideal) x0 (ix2 r k) = x0 (ix3 0 r k) := by
  rw [val_main_v25_apply, val_main_v24_apply]
  congr 1
  funext a
  apply Fin.ext
  match a with
  | ⟨0, _⟩ => rfl
  | ⟨1, _⟩ => show (r.val * 4096 + k.val) / 4096 % 4096 = r.val; have := r.isLt; have := k.isLt; omega
  | ⟨2, _⟩ => show (r.val * 4096 + k.val) % 4096 = k.val; have := k.isLt; omega

/-- Graph 1's adjacency matrix, sliced again for the second layer. -/
theorem v34_at (x0 : Cert.Spec.Adj) (r k : Fin 4096) :
    val_main_v34 (F := Ideal) x0 (ix2 r k) = x0 (ix3 1 r k) := by
  rw [val_main_v34_apply, val_main_v33_apply]
  congr 1
  funext a
  apply Fin.ext
  match a with
  | ⟨0, _⟩ => rfl
  | ⟨1, _⟩ => show (r.val * 4096 + k.val) / 4096 % 4096 = r.val; have := r.isLt; have := k.isLt; omega
  | ⟨2, _⟩ => show (r.val * 4096 + k.val) % 4096 = k.val; have := k.isLt; omega

/-- Graph 0, second layer: the mix of the propagated and the own hidden features. -/
theorem v31_at (x0 : Cert.Spec.Adj) (x1 : Cert.Spec.Feat) (x2 x3 : Cert.Spec.Wt) (r : Fin 4096) (d : Fin 512) :
    val_main_v31 (F := Ideal) x0 x1 x2 (ix2 r d) =
      Cert.Spec.c9 * (∑ k : Fin 4096, x0 (ix3 0 r k) * Cert.Spec.hid x0 x1 (Cert.Spec.stack x2 x3) (ix3 0 k d))
        + Cert.Spec.c1 * Cert.Spec.hid x0 x1 (Cert.Spec.stack x2 x3) (ix3 0 r d) := by
  rw [val_main_v31_apply, val_main_v28_apply, val_main_v30_apply, val_main_v27_apply, val_main_cst_3_apply,
    val_main_v29_apply, val_main_cst_4_apply, val_main_v26_apply, v22_at x0 x1 x2 x3]
  simp only [Ideal.mulf_def, Ideal.addf_def, Ideal.ofBits_def]
  refine congrArg (fun s => Cert.Spec.c9 * s + Cert.Spec.c1 * Cert.Spec.hid x0 x1 (Cert.Spec.stack x2 x3) (ix3 0 r d))
    (Finset.sum_congr rfl fun k _ => ?_)
  rw [show lidx_main_v26 (ix2 r d) k = ix2 r k from lidx_adj r d k,
    show ridx_main_v26 (ix2 r d) k = ix2 k d from ridx_adj r d k, v25_at, v22_at x0 x1 x2 x3]

/-- Graph 0, second layer. -/
theorem v32_at (x0 : Cert.Spec.Adj) (x1 : Cert.Spec.Feat) (x2 x3 x4 x5 : Cert.Spec.Wt) (r : Fin 4096) (q : Fin 512) :
    val_main_v32 (F := Ideal) x0 x1 x2 x4 (ix2 r q) =
      Cert.Spec.layerAt x0 (Cert.Spec.hid x0 x1 (Cert.Spec.stack x2 x3)) (Cert.Spec.stack x4 x5) 0 r q := by
  rw [val_main_v32_apply]
  unfold Cert.Spec.layerAt Cert.Spec.layer
  refine Finset.sum_congr rfl fun k _ => ?_
  rw [show lidx_main_v32 (ix2 r q) k = ix2 r k from lidx_wt r q k,
    show ridx_main_v32 (ix2 r q) k = ix2 k q from ridx_wt r q k, v31_at x0 x1 x2 x3]
  rfl

/-- Graph 1, second layer: the mix of the propagated and the own hidden features. -/
theorem v40_at (x0 : Cert.Spec.Adj) (x1 : Cert.Spec.Feat) (x2 x3 : Cert.Spec.Wt) (r : Fin 4096) (d : Fin 512) :
    val_main_v40 (F := Ideal) x0 x1 x3 (ix2 r d) =
      Cert.Spec.c9 * (∑ k : Fin 4096, x0 (ix3 1 r k) * Cert.Spec.hid x0 x1 (Cert.Spec.stack x2 x3) (ix3 1 k d))
        + Cert.Spec.c1 * Cert.Spec.hid x0 x1 (Cert.Spec.stack x2 x3) (ix3 1 r d) := by
  rw [val_main_v40_apply, val_main_v37_apply, val_main_v39_apply, val_main_v36_apply, val_main_cst_5_apply,
    val_main_v38_apply, val_main_cst_6_apply, val_main_v35_apply, v23_at x0 x1 x2 x3]
  simp only [Ideal.mulf_def, Ideal.addf_def, Ideal.ofBits_def]
  refine congrArg (fun s => Cert.Spec.c9 * s + Cert.Spec.c1 * Cert.Spec.hid x0 x1 (Cert.Spec.stack x2 x3) (ix3 1 r d))
    (Finset.sum_congr rfl fun k _ => ?_)
  rw [show lidx_main_v35 (ix2 r d) k = ix2 r k from lidx_adj r d k,
    show ridx_main_v35 (ix2 r d) k = ix2 k d from ridx_adj r d k, v34_at, v23_at x0 x1 x2 x3]

/-- Graph 1, second layer. -/
theorem v41_at (x0 : Cert.Spec.Adj) (x1 : Cert.Spec.Feat) (x2 x3 x4 x5 : Cert.Spec.Wt) (r : Fin 4096) (q : Fin 512) :
    val_main_v41 (F := Ideal) x0 x1 x3 x5 (ix2 r q) =
      Cert.Spec.layerAt x0 (Cert.Spec.hid x0 x1 (Cert.Spec.stack x2 x3)) (Cert.Spec.stack x4 x5) 1 r q := by
  rw [val_main_v41_apply]
  unfold Cert.Spec.layerAt Cert.Spec.layer
  refine Finset.sum_congr rfl fun k _ => ?_
  rw [show lidx_main_v41 (ix2 r q) k = ix2 r k from lidx_wt r q k,
    show ridx_main_v41 (ix2 r q) k = ix2 k q from ridx_wt r q k, v40_at x0 x1 x2 x3]
  rfl

/-! ## The whole program -/

/-- The reference's result is the network of its arguments. -/
theorem ref_net (x0 : Cert.Spec.Adj) (x1 : Cert.Spec.Feat) (x2 x3 x4 x5 : Cert.Spec.Wt) :
    (val_main_v46 (F := Ideal) x0 x1 x2 x3 x4 x5 : Cert.Spec.Res) = Cert.Spec.net x0 x1 x2 x3 x4 x5 := by
  funext i
  obtain ⟨r, q, rfl⟩ : ∃ (r : Fin 4096) (q : Fin 512), i = ix2 r q := ⟨i 0, i 1, eq_ix2 i⟩
  rw [val_main_v46_apply, val_main_v45_apply, val_main_cst_8_apply, val_main_v44_apply, val_main_v43_apply,
    val_main_v42_apply, val_main_cst_7_apply, v32_at x0 x1 x2 x3 x4 x5, v41_at x0 x1 x2 x3 x4 x5]
  simp only [Ideal.hostDivf_def, Ideal.addf_def, Ideal.ofBits_def]
  exact Cert.Spec.half_law _ _

end Cert.ReferenceIdeal.RefNet

end
-- ==== Proof.lean ====
/-
  The certificate of a two-layer graph network: per graph, a layer mixes neighbour sums with the node's own features,
  h ← (c9 * (A h) + c1 * h) W, with a clip at zero between the two layers, and the two graphs' results are averaged.

  The kernel runs each layer as one pipelined launch.  The first launch, over (graph, row panel), writes the clipped
  first layer and a narrowed copy of the adjacency arrays; the second, over (row panel, graph), accumulates in its
  output block the two graphs' halved second layers.  The reference computes the same layers on whole arrays, adds
  the two graphs' results onto a zero and divides by two.

  Frames.  Each of the kernel's two programs (read at words and at extended reals) is the host operations that stack
  the weight matrices followed by the two launches; each launch's body obligation is discharged by running the body
  at a generic grid point (the second launch's in its two branches), and the launches are chained through the
  buffer contents at each boundary.  The reference's frame is its run with the result dropped.
  Values, over the extended reals.  A change of float format is the identity and a matrix product is the exact sum
  over the contracted index, so every written block of a launch is the restriction of one whole-array function of
  the launch's input arrays, and the blocks cover the array.  The reference's operations read at an index give the
  same function of the arguments; the averaging agrees because halving distributes over the sum of two extended
  reals.
-/
import proofs.«112696_g76459007803594_cont_9to1_m_617_25_alg».proof.Defs
import proofs.«112696_g76459007803594_cont_9to1_m_617_25_alg».proof.Proof.Gen.Kernel
import proofs.«112696_g76459007803594_cont_9to1_m_617_25_alg».proof.Proof.Gen.KernelIdeal
import proofs.«112696_g76459007803594_cont_9to1_m_617_25_alg».proof.Proof.Gen.ReferenceIdeal
import proofs.«112696_g76459007803594_cont_9to1_m_617_25_alg».proof.Proof.Gen.Pre_finite_inputs
import proofs.«112696_g76459007803594_cont_9to1_m_617_25_alg».proof.Proof.Gen.ReferenceIdeal.Run
import proofs.«112696_g76459007803594_cont_9to1_m_617_25_alg».proof.Proof.Gen.ReferenceIdeal.Read
import proofs.«112696_g76459007803594_cont_9to1_m_617_25_alg».proof.Proof.K.Run
import proofs.«112696_g76459007803594_cont_9to1_m_617_25_alg».proof.Proof.KI.Run
import proofs.«112696_g76459007803594_cont_9to1_m_617_25_alg».proof.Proof.KI.Glue
import proofs.«112696_g76459007803594_cont_9to1_m_617_25_alg».proof.Proof.RefNet

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals both programs end with the network of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_net m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, (hagree c).1, (hagree c).2.1, (hagree c).2.2.1, (hagree c).2.2.2.1,
      (hagree c).2.2.2.2.1, (hagree c).2.2.2.2.2]
    exact Cert.ReferenceIdeal.RefNet.ref_net _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
